-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_arg2)) (v4 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x2 : Shape := ⟨3, ![32, 16384, 2]⟩
abbrev S32x197888 : Shape := ⟨2, ![32, 197888]⟩
abbrev S32x1027 : Shape := ⟨2, ![32, 1027]⟩
abbrev S32x256 : Shape := ⟨2, ![32, 256]⟩
abbrev S_ : Shape := ⟨0, ![]⟩

class Facts : Prop where
  bcast_S_S32x16384x2 : S_.BroadcastsInDim S32x16384x2 (![] : Fin 0 → Fin S32x16384x2.rank)
  reducesTo_S32x16384x2_S_d0_1_2 : S32x16384x2.ReducesTo [0, 1, 2] S_
  h_S_ : 0 < S_.numel
  bcast_S_S32x197888 : S_.BroadcastsInDim S32x197888 (![] : Fin 0 → Fin S32x197888.rank)
  reducesTo_S32x197888_S_d0_1 : S32x197888.ReducesTo [0, 1] S_
  bcast_S_S32x1027 : S_.BroadcastsInDim S32x1027 (![] : Fin 0 → Fin S32x1027.rank)
  reducesTo_S32x1027_S_d0_1 : S32x1027.ReducesTo [0, 1] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  main_v18

def fn {F : FTy → Type} [FloatOps F] (main_arg0 : FVec F S32x16384x2 .f32) (main_arg1 : FVec F S32x197888 .f32) (main_arg2 : FVec F S32x1027 .f32) (main_arg3 : FVec F S32x256 .f32) : IVec S_ 1 :=
  let main_v0 : FVec F S32x16384x2 .f32 := Host.absf main_arg0
  let main_cst : FVec F S_ .f32 := constant S_ .f32 0x7F800000#32
  let main_v1 : FVec F S32x16384x2 .f32 := broadcastInDim S32x16384x2 ![] bcast_S_S32x16384x2 main_cst
  let main_v2 : IVec S32x16384x2 1 := cmpf .olt main_v0 main_v1
  let main_c : IVec S_ 1 := constantI S_ 1 1#1
  let main_v3 : IVec S_ 1 := (fun x v => Host.reduce IntOp.andi x v reducesTo_S32x16384x2_S_d0_1_2 h_S_) main_v2 main_c
  let main_v4 : FVec F S32x197888 .f32 := Host.absf main_arg1
  let main_cst_0 : FVec F S_ .f32 := constant S_ .f32 0x7F800000#32
  let main_v5 : FVec F S32x197888 .f32 := broadcastInDim S32x197888 ![] bcast_S_S32x197888 main_cst_0
  let main_v6 : IVec S32x197888 1 := cmpf .olt main_v4 main_v5
  let main_c_1 : IVec S_ 1 := constantI S_ 1 1#1
  let main_v7 : IVec S_ 1 := (fun x v => Host.reduce IntOp.andi x v reducesTo_S32x197888_S_d0_1 h_S_) main_v6 main_c_1
  let main_v8 : IVec S_ 1 := andi main_v3 main_v7
  let main_v9 : FVec F S32x1027 .f32 := Host.absf main_arg2
  let main_cst_2 : FVec F S_ .f32 := constant S_ .f32 0x7F800000#32
  let main_v10 : FVec F S32x1027 .f32 := broadcastInDim S32x1027 ![] bcast_S_S32x1027 main_cst_2
  let main_v11 : IVec S32x1027 1 := cmpf .olt main_v9 main_v10
  let main_c_3 : IVec S_ 1 := constantI S_ 1 1#1
  let main_v12 : IVec S_ 1 := (fun x v => Host.reduce IntOp.andi x v reducesTo_S32x1027_S_d0_1 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_v13 main_v16
-- ==== Kernel.lean ====
abbrev S32x16384x2 : Shape := ⟨3, ![32, 16384, 2]⟩
abbrev S32x197888 : Shape := ⟨2, ![32, 197888]⟩
abbrev S32x1027 : Shape := ⟨2, ![32, 1027]⟩
abbrev S32x256 : Shape := ⟨2, ![32, 256]⟩
abbrev S32x512 : Shape := ⟨2, ![32, 512]⟩
abbrev S32x256x2 : Shape := ⟨3, ![32, 256, 2]⟩
abbrev S32x2x256 : Shape := ⟨3, ![32, 2, 256]⟩
abbrev S32x65536 : Shape := ⟨2, ![32, 65536]⟩
abbrev S32x256x256 : Shape := ⟨3, ![32, 256, 256]⟩
abbrev S32x768 : Shape := ⟨2, ![32, 768]⟩
abbrev S32x3x256 : Shape := ⟨3, ![32, 3, 256]⟩
abbrev S32x256x3 : Shape := ⟨3, ![32, 256, 3]⟩
abbrev S32x1x256 : Shape := ⟨3, ![32, 1, 256]⟩
abbrev S32x3 : Shape := ⟨2, ![32, 3]⟩
abbrev S32x1x3 : Shape := ⟨3, ![32, 1, 3]⟩
abbrev S32x16384x3 : Shape := ⟨3, ![32, 16384, 3]⟩
abbrev S1x4096x2 : Shape := ⟨3, ![1, 4096, 2]⟩
abbrev S1x2x256 : Shape := ⟨3, ![1, 2, 256]⟩
abbrev S1x256x256 : Shape := ⟨3, ![1, 256, 256]⟩
abbrev S1x256x3 : Shape := ⟨3, ![1, 256, 3]⟩
abbrev S1x1x256 : Shape := ⟨3, ![1, 1, 256]⟩
abbrev S1x1x3 : Shape := ⟨3, ![1, 1, 3]⟩
abbrev S1x4096x3 : Shape := ⟨3, ![1, 4096, 3]⟩
abbrev S4096x2 : Shape := ⟨2, ![4096, 2]⟩
abbrev S2x256 : Shape := ⟨2, ![2, 256]⟩
abbrev S4096x256 : Shape := ⟨2, ![4096, 256]⟩
abbrev S1x256 : Shape := ⟨2, ![1, 256]⟩
abbrev S256x256 : Shape := ⟨2, ![256, 256]⟩
abbrev S256x3 : Shape := ⟨2, ![256, 3]⟩
abbrev S4096x3 : Shape := ⟨2, ![4096, 3]⟩
abbrev S1x3 : Shape := ⟨2, ![1, 3]⟩

abbrev nBuf : Space → Nat
  | .hbm => 36
  | .vmem => 24
  | .smem => 0
  | _ => 0

abbrev bufTy : (tb : Table) → Fin (tcTables nBuf tb) → BufTy
  | .hbm, ⟨0, _⟩ => ⟨S32x16384x2, .f32⟩
  | .hbm, ⟨1, _⟩ => ⟨S32x197888, .f32⟩
  | .hbm, ⟨2, _⟩ => ⟨S32x1027, .f32⟩
  | .hbm, ⟨3, _⟩ => ⟨S32x256, .f32⟩
  | .hbm, ⟨4, _⟩ => ⟨S32x512, .f32⟩
  | .hbm, ⟨5, _⟩ => ⟨S32x256x2, .f32⟩
  | .hbm, ⟨6, _⟩ => ⟨S32x2x256, .f32⟩
  | .hbm, ⟨7, _⟩ => ⟨S32x2x256, .bf16⟩
  | .hbm, ⟨8, _⟩ => ⟨S32x65536, .f32⟩
  | .hbm, ⟨9, _⟩ => ⟨S32x256x256, .f32⟩
  | .hbm, ⟨10, _⟩ => ⟨S32x256x256, .f32⟩
  | .hbm, ⟨11, _⟩ => ⟨S32x256x256, .bf16⟩
  | .hbm, ⟨12, _⟩ => ⟨S32x65536, .f32⟩
  | .hbm, ⟨13, _⟩ => ⟨S32x256x256, .f32⟩
  | .hbm, ⟨14, _⟩ => ⟨S32x256x256, .f32⟩
  | .hbm, ⟨15, _⟩ => ⟨S32x256x256, .bf16⟩
  | .hbm, ⟨16, _⟩ => ⟨S32x65536, .f32⟩
  | .hbm, ⟨17, _⟩ => ⟨S32x256x256, .f32⟩
  | .hbm, ⟨18, _⟩ => ⟨S32x256x256, .f32⟩
  | .hbm, ⟨19, _⟩ => ⟨S32x256x256, .bf16⟩
  | .hbm, ⟨20, _⟩ => ⟨S32x768, .f32⟩
  | .hbm, ⟨21, _⟩ => ⟨S32x3x256, .f32⟩
  | .hbm, ⟨22, _⟩ => ⟨S32x256x3, .f32⟩
  | .hbm, ⟨23, _⟩ => ⟨S32x256x3, .bf16⟩
  | .hbm, ⟨24, _⟩ => ⟨S32x256, .f32⟩
  | .hbm, ⟨25, _⟩ => ⟨S32x1x256, .f32⟩
  | .hbm, ⟨26, _⟩ => ⟨S32x256, .f32⟩
  | .hbm, ⟨27, _⟩ => ⟨S32x1x256, .f32⟩
  | .hbm, ⟨28, _⟩ => ⟨S32x256, .f32⟩
  | .hbm, ⟨29, _⟩ => ⟨S32x1x256, .f32⟩
  | .hbm, ⟨30, _⟩ => ⟨S32x256, .f32⟩
  | .hbm, ⟨31, _⟩ => ⟨S32x1x256, .f32⟩
  | .hbm, ⟨32, _⟩ => ⟨S32x3, .f32⟩
  | .hbm, ⟨33, _⟩ => ⟨S32x1x3, .f32⟩
  | .hbm, ⟨34, _⟩ => ⟨S32x16384x2, .bf16⟩
  | .hbm, ⟨35, _⟩ => ⟨S32x16384x3, .f32⟩
  | .local _ .vmem, ⟨0, _⟩ => ⟨S1x4096x2, .bf16⟩
  | .local _ .vmem, ⟨1, _⟩ => ⟨S1x4096x2, .bf16⟩
  | .local _ .vmem, ⟨2, _⟩ => ⟨S1x2x256, .bf16⟩
  | .local _ .vmem, ⟨3, _⟩ => ⟨S1x2x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x3, .bf16⟩
  | .local _ .vmem, ⟨11, _⟩ => ⟨S1x256x3, .bf16⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1x3, .f32⟩
  | .local _ .vmem, ⟨21, _⟩ => ⟨S1x1x3, .f32⟩
  | .local _ .vmem, ⟨22, _⟩ => ⟨S1x4096x3, .f32⟩
  | .local _ .vmem, ⟨23, _⟩ => ⟨S1x4096x3, .f32⟩
  | _, _ => ⟨S32x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x2 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x3 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4096x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  slices_S32x197888_S32x512_0_0 : S32x197888.Slices ![0, 0] S32x512
  shapeCasts_S32x512_S32x256x2 : S32x512.ShapeCasts S32x256x2
  transposes_S32x256x2_S32x2x256_0_2_1 : S32x256x2.Transposes [0, 2, 1] S32x2x256
  bitsLt_bf16_f32 : FTy.bits .bf16 < FTy.bits .f32
  slices_S32x197888_S32x65536_0_512 : S32x197888.Slices ![0, 512] S32x65536
  shapeCasts_S32x65536_S32x256x256 : S32x65536.ShapeCasts S32x256x256
  transposes_S32x256x256_S32x256x256_0_2_1 : S32x256x256.Transposes [0, 2, 1] S32x256x256
  slices_S32x197888_S32x65536_0_66048 : S32x197888.Slices ![0, 66048] S32x65536
  slices_S32x197888_S32x65536_0_131584 : S32x197888.Slices ![0, 131584] S32x65536
  slices_S32x197888_S32x768_0_197120 : S32x197888.Slices ![0, 197120] S32x768
  shapeCasts_S32x768_S32x3x256 : S32x768.ShapeCasts S32x3x256
  transposes_S32x3x256_S32x256x3_0_2_1 : S32x3x256.Transposes [0, 2, 1] S32x256x3
  slices_S32x1027_S32x256_0_0 : S32x1027.Slices ![0, 0] S32x256
  shapeCasts_S32x256_S32x1x256 : S32x256.ShapeCasts S32x1x256
  slices_S32x1027_S32x256_0_256 : S32x1027.Slices ![0, 256] S32x256
  slices_S32x1027_S32x256_0_512 : S32x1027.Slices ![0, 512] S32x256
  slices_S32x1027_S32x256_0_768 : S32x1027.Slices ![0, 768] S32x256
  slices_S32x1027_S32x3_0_1024 : S32x1027.Slices ![0, 1024] S32x3
  shapeCasts_S32x3_S32x1x3 : S32x3.ShapeCasts S32x1x3
  inb_S1x4096x2_S1x4096x2_0_0_0 : ∀ a, (![0, 0, 0] : Fin 3 → Nat) a + S1x4096x2.size a ≤ S1x4096x2.size a
  h_S1x4096x2 : 0 < S1x4096x2.numel
  shapeCasts_S1x4096x2_S4096x2 : S1x4096x2.ShapeCasts S4096x2
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S4096x256 : S1x256.Broadcasts S4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  broadcasts_S1x3_S4096x3 : S1x3.Broadcasts S4096x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  shapeCasts_S4096x3_S1x4096x3 : S4096x3.ShapeCasts S1x4096x3
  dot_S4096x2_S2x256_S4096x256_1_0_0_1_n_n_wf : DotDims.WF S4096x2 S2x256 S4096x256 [1] [0] [0] [1] [] []
  dot_S4096x256_S256x256_S4096x256_1_0_0_1_n_n_wf : DotDims.WF S4096x256 S256x256 S4096x256 [1] [0] [0] [1] [] []
  dot_S4096x256_S256x3_S4096x3_1_0_0_1_n_n_wf : DotDims.WF S4096x256 S256x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x2.size a ≤ S32x16384x2.size a
  hwx0_0 : ∀ i : grid0.Coords, EltTy.bits .bf16 = 32 ∨ (Rect.block (s := S32x16384x2) S1x4096x2.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256.size a ≤ S32x2x256.size a
  hwx0_1 : ∀ i : grid0.Coords, EltTy.bits .bf16 = 32 ∨ (Rect.block (s := S32x2x256) S1x2x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S32x256x256.size a
  hwx0_2 : ∀ i : grid0.Coords, EltTy.bits .bf16 = 32 ∨ (Rect.block (s := S32x256x256) S1x256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S32x256x256.size a
  hwx0_3 : ∀ i : grid0.Coords, EltTy.bits .bf16 = 32 ∨ (Rect.block (s := S32x256x256) S1x256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S32x256x256.size a
  hwx0_4 : ∀ i : grid0.Coords, EltTy.bits .bf16 = 32 ∨ (Rect.block (s := S32x256x256) S1x256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x3.size a ≤ S32x256x3.size a
  hwx0_5 : ∀ i : grid0.Coords, EltTy.bits .bf16 = 32 ∨ (Rect.block (s := S32x256x3) S1x256x3.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S32x1x256.size a
  hwx0_6 : ∀ i : grid0.Coords, EltTy.bits .f32 = 32 ∨ (Rect.block (s := S32x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S32x1x256.size a
  hwx0_7 : ∀ i : grid0.Coords, EltTy.bits .f32 = 32 ∨ (Rect.block (s := S32x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S32x1x256.size a
  hwx0_8 : ∀ i : grid0.Coords, EltTy.bits .f32 = 32 ∨ (Rect.block (s := S32x1x256) S1x1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x256.size a ≤ S32x1x256.size a
  hwx0_9 : ∀ i : grid0.Coords, EltTy.bits .f32 = 32 ∨ (Rect.block (s := S32x1x256) S1x1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x3.size a ≤ S32x1x3.size a
  hwx0_10 : ∀ i : grid0.Coords, EltTy.bits .f32 = 32 ∨ (Rect.block (s := S32x1x3) S1x1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x4096x3.size a ≤ S32x16384x3.size a
  hwx0_11 : ∀ i : grid0.Coords, EltTy.bits .f32 = 32 ∨ (Rect.block (s := S32x16384x3) S1x4096x3.size (cc0_transform_11 i) (hinb0_11 i)).WholeWords (EltTy.packing .f32)

variable [Facts₀]

def dot_S4096x2_S2x256_S4096x256_1_0_0_1_n_n : DotDims S4096x2 S2x256 S4096x256 where
  lhsContracting := [1]
  rhsContracting := [0]
  lhsNonContracting := [0]
  rhsNonContracting := [1]
  lhsBatch := []
  rhsBatch := []
  wf := dot_S4096x2_S2x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x3_S4096x3_1_0_0_1_n_n : DotDims S4096x256 S256x3 S4096x3 where
  lhsContracting := [1]
  rhsContracting := [0]
  lhsNonContracting := [0]
  rhsNonContracting := [1]
  lhsBatch := []
  rhsBatch := []
  wf := dot_S4096x256_S256x3_S4096x3_1_0_0_1_n_n_wf

abbrev win0_0 : Pipeline.Window sig grid0 :=
  Pipeline.Window.ofSpec (Memref.whole main_v30) S1x4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x1x3.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v31) S1x4096x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x16384x2 : Shape := ⟨3, ![32, 16384, 2]⟩
abbrev S32x197888 : Shape := ⟨2, ![32, 197888]⟩
abbrev S32x1027 : Shape := ⟨2, ![32, 1027]⟩
abbrev S32x256 : Shape := ⟨2, ![32, 256]⟩
abbrev S32x512 : Shape := ⟨2, ![32, 512]⟩
abbrev S32x256x2 : Shape := ⟨3, ![32, 256, 2]⟩
abbrev S32x2x256 : Shape := ⟨3, ![32, 2, 256]⟩
abbrev S32x16384x256 : Shape := ⟨3, ![32, 16384, 256]⟩
abbrev S32x1x256 : Shape := ⟨3, ![32, 1, 256]⟩
abbrev S_ : Shape := ⟨0, ![]⟩
abbrev S32x65536 : Shape := ⟨2, ![32, 65536]⟩
abbrev S32x256x256 : Shape := ⟨3, ![32, 256, 256]⟩
abbrev S32x768 : Shape := ⟨2, ![32, 768]⟩
abbrev S32x3x256 : Shape := ⟨3, ![32, 3, 256]⟩
abbrev S32x3 : Shape := ⟨2, ![32, 3]⟩
abbrev S32x256x3 : Shape := ⟨3, ![32, 256, 3]⟩
abbrev S32x16384x3 : Shape := ⟨3, ![32, 16384, 3]⟩
abbrev S32x1x3 : Shape := ⟨3, ![32, 1, 3]⟩

abbrev nBuf : Space → Nat
  | .hbm => 60
  | .vmem => 0
  | .smem => 0
  | _ => 0

abbrev bufTy : (tb : Table) → Fin (tcTables nBuf tb) → BufTy
  | .hbm, ⟨0, _⟩ => ⟨S32x16384x2, .f32⟩
  | .hbm, ⟨1, _⟩ => ⟨S32x197888, .f32⟩
  | .hbm, ⟨2, _⟩ => ⟨S32x1027, .f32⟩
  | .hbm, ⟨3, _⟩ => ⟨S32x256, .f32⟩
  | .hbm, ⟨4, _⟩ => ⟨S32x512, .f32⟩
  | .hbm, ⟨5, _⟩ => ⟨S32x256x2, .f32⟩
  | .hbm, ⟨6, _⟩ => ⟨S32x256, .f32⟩
  | .hbm, ⟨7, _⟩ => ⟨S32x2x256, .f32⟩
  | .hbm, ⟨8, _⟩ => ⟨S32x16384x256, .f32⟩
  | .hbm, ⟨9, _⟩ => ⟨S32x1x256, .f32⟩
  | .hbm, ⟨10, _⟩ => ⟨S32x16384x256, .f32⟩
  | .hbm, ⟨11, _⟩ => ⟨S32x16384x256, .f32⟩
  | .hbm, ⟨12, _⟩ => ⟨S_, .f32⟩
  | .hbm, ⟨13, _⟩ => ⟨S32x16384x256, .f32⟩
  | .hbm, ⟨14, _⟩ => ⟨S32x16384x256, .f32⟩
  | .hbm, ⟨15, _⟩ => ⟨S32x16384x256, .f32⟩
  | .hbm, ⟨16, _⟩ => ⟨S32x65536, .f32⟩
  | .hbm, ⟨17, _⟩ => ⟨S32x256x256, .f32⟩
  | .hbm, ⟨18, _⟩ => ⟨S32x256, .f32⟩
  | .hbm, ⟨19, _⟩ => ⟨S32x256x256, .f32⟩
  | .hbm, ⟨20, _⟩ => ⟨S32x16384x256, .f32⟩
  | .hbm, ⟨21, _⟩ => ⟨S32x1x256, .f32⟩
  | .hbm, ⟨22, _⟩ => ⟨S32x16384x256, .f32⟩
  | .hbm, ⟨23, _⟩ => ⟨S32x16384x256, .f32⟩
  | .hbm, ⟨24, _⟩ => ⟨S_, .f32⟩
  | .hbm, ⟨25, _⟩ => ⟨S32x16384x256, .f32⟩
  | .hbm, ⟨26, _⟩ => ⟨S32x16384x256, .f32⟩
  | .hbm, ⟨27, _⟩ => ⟨S32x16384x256, .f32⟩
  | .hbm, ⟨28, _⟩ => ⟨S32x65536, .f32⟩
  | .hbm, ⟨29, _⟩ => ⟨S32x256x256, .f32⟩
  | .hbm, ⟨30, _⟩ => ⟨S32x256, .f32⟩
  | .hbm, ⟨31, _⟩ => ⟨S32x256x256, .f32⟩
  | .hbm, ⟨32, _⟩ => ⟨S32x16384x256, .f32⟩
  | .hbm, ⟨33, _⟩ => ⟨S32x1x256, .f32⟩
  | .hbm, ⟨34, _⟩ => ⟨S32x16384x256, .f32⟩
  | .hbm, ⟨35, _⟩ => ⟨S32x16384x256, .f32⟩
  | .hbm, ⟨36, _⟩ => ⟨S_, .f32⟩
  | .hbm, ⟨37, _⟩ => ⟨S32x16384x256, .f32⟩
  | .hbm, ⟨38, _⟩ => ⟨S32x16384x256, .f32⟩
  | .hbm, ⟨39, _⟩ => ⟨S32x16384x256, .f32⟩
  | .hbm, ⟨40, _⟩ => ⟨S32x65536, .f32⟩
  | .hbm, ⟨41, _⟩ => ⟨S32x256x256, .f32⟩
  | .hbm, ⟨42, _⟩ => ⟨S32x256, .f32⟩
  | .hbm, ⟨43, _⟩ => ⟨S32x256x256, .f32⟩
  | .hbm, ⟨44, _⟩ => ⟨S32x16384x256, .f32⟩
  | .hbm, ⟨45, _⟩ => ⟨S32x1x256, .f32⟩
  | .hbm, ⟨46, _⟩ => ⟨S32x16384x256, .f32⟩
  | .hbm, ⟨47, _⟩ => ⟨S32x16384x256, .f32⟩
  | .hbm, ⟨48, _⟩ => ⟨S_, .f32⟩
  | .hbm, ⟨49, _⟩ => ⟨S32x16384x256, .f32⟩
  | .hbm, ⟨50, _⟩ => ⟨S32x16384x256, .f32⟩
  | .hbm, ⟨51, _⟩ => ⟨S32x16384x256, .f32⟩
  | .hbm, ⟨52, _⟩ => ⟨S32x768, .f32⟩
  | .hbm, ⟨53, _⟩ => ⟨S32x3x256, .f32⟩
  | .hbm, ⟨54, _⟩ => ⟨S32x3, .f32⟩
  | .hbm, ⟨55, _⟩ => ⟨S32x256x3, .f32⟩
  | .hbm, ⟨56, _⟩ => ⟨S32x16384x3, .f32⟩
  | .hbm, ⟨57, _⟩ => ⟨S32x1x3, .f32⟩
  | .hbm, ⟨58, _⟩ => ⟨S32x16384x3, .f32⟩
  | .hbm, ⟨59, _⟩ => ⟨S32x16384x3, .f32⟩
  | _, _ => ⟨S32x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]

class Facts₀ : Prop where
  slices_S32x197888_S32x512_0_0 : S32x197888.Slices ![0, 0] S32x512
  shapeCasts_S32x512_S32x256x2 : S32x512.ShapeCasts S32x256x2
  slices_S32x1027_S32x256_0_0 : S32x1027.Slices ![0, 0] S32x256
  transposes_S32x256x2_S32x2x256_0_2_1 : S32x256x2.Transposes [0, 2, 1] S32x2x256
  bcast_S32x256_S32x1x256_0_2 : S32x256.BroadcastsInDim S32x1x256 (![0, 2] : Fin 2 → Fin S32x1x256.rank)
  bcast_S32x1x256_S32x16384x256_0_1_2 : S32x1x256.BroadcastsInDim S32x16384x256 (![0, 1, 2] : Fin 3 → Fin S32x16384x256.rank)
  bcast_S_S32x16384x256 : S_.BroadcastsInDim S32x16384x256 (![] : Fin 0 → Fin S32x16384x256.rank)
  slices_S32x197888_S32x65536_0_512 : S32x197888.Slices ![0, 512] S32x65536
  shapeCasts_S32x65536_S32x256x256 : S32x65536.ShapeCasts S32x256x256
  slices_S32x1027_S32x256_0_256 : S32x1027.Slices ![0, 256] S32x256
  transposes_S32x256x256_S32x256x256_0_2_1 : S32x256x256.Transposes [0, 2, 1] S32x256x256
  slices_S32x197888_S32x65536_0_66048 : S32x197888.Slices ![0, 66048] S32x65536
  slices_S32x1027_S32x256_0_512 : S32x1027.Slices ![0, 512] S32x256
  slices_S32x197888_S32x65536_0_131584 : S32x197888.Slices ![0, 131584] S32x65536
  slices_S32x1027_S32x256_0_768 : S32x1027.Slices ![0, 768] S32x256
  slices_S32x197888_S32x768_0_197120 : S32x197888.Slices ![0, 197120] S32x768
  shapeCasts_S32x768_S32x3x256 : S32x768.ShapeCasts S32x3x256
  slices_S32x1027_S32x3_0_1024 : S32x1027.Slices ![0, 1024] S32x3
  transposes_S32x3x256_S32x256x3_0_2_1 : S32x3x256.Transposes [0, 2, 1] S32x256x3
  bcast_S32x3_S32x1x3_0_2 : S32x3.BroadcastsInDim S32x1x3 (![0, 2] : Fin 2 → Fin S32x1x3.rank)
  bcast_S32x1x3_S32x16384x3_0_1_2 : S32x1x3.BroadcastsInDim S32x16384x3 (![0, 1, 2] : Fin 3 → Fin S32x16384x3.rank)
  dot_S32x16384x2_S32x2x256_S32x16384x256_2_1_1_2_0_0_wf : DotDims.WF S32x16384x2 S32x2x256 S32x16384x256 [2] [1] [1] [2] [0] [0]
  dot_S32x16384x256_S32x256x256_S32x16384x256_2_1_1_2_0_0_wf : DotDims.WF S32x16384x256 S32x256x256 S32x16384x256 [2] [1] [1] [2] [0] [0]
  dot_S32x16384x256_S32x256x3_S32x16384x3_2_1_1_2_0_0_wf : DotDims.WF S32x16384x256 S32x256x3 S32x16384x3 [2] [1] [1] [2] [0] [0]

variable [Facts₀]

def dot_S32x16384x2_S32x2x256_S32x16384x256_2_1_1_2_0_0 : DotDims S32x16384x2 S32x2x256 S32x16384x256 where
  lhsContracting := [2]
  rhsContracting := [1]
  lhsNonContracting := [1]
  rhsNonContracting := [2]
  lhsBatch := [0]
  rhsBatch := [0]
  wf := dot_S32x16384x2_S32x2x256_S32x16384x256_2_1_1_2_0_0_wf
def dot_S32x16384x256_S32x256x256_S32x16384x256_2_1_1_2_0_0 : DotDims S32x16384x256 S32x256x256 S32x16384x256 where
  lhsContracting := [2]
  rhsContracting := [1]
  lhsNonContracting := [1]
  rhsNonContracting := [2]
  lhsBatch := [0]
  rhsBatch := [0]
  wf := dot_S32x16384x256_S32x256x256_S32x16384x256_2_1_1_2_0_0_wf
def dot_S32x16384x256_S32x256x3_S32x16384x3_2_1_1_2_0_0 : DotDims S32x16384x256 S32x256x3 S32x16384x3 where
  lhsContracting := [2]
  rhsContracting := [1]
  lhsNonContracting := [1]
  rhsNonContracting := [2]
  lhsBatch := [0]
  rhsBatch := [0]
  wf := dot_S32x16384x256_S32x256x3_S32x16384x3_2_1_1_2_0_0_wf

class Facts : Prop extends Facts₀ where

variable [Facts]
-- ==== Proof.Spec.lean ====
/-
  The sine network that both programs compute, written once over the extended reals.

  For one sample and one coordinate row the network is five affine layers, the first four followed by the
  activation y ↦ sin (30 · y):
      h₁ = sin (30 · (x  · W₀ + β₀)),   hₗ₊₁ = sin (30 · (hₗ · Wₗ + βₗ))  (l = 1, 2, 3),   out = h₄ · W₄ + β₄,
  where x has 2 entries, the hidden rows 256 and the output row 3. An affine layer on a row is
      (x · W + β) j = (∑ k, x k * W k j) + β j,
  the sum taken over the layer's input width in its natural order. Nothing here needs the entries to be finite: both
  programs form exactly these sums, products and sines, so no law of the extended reals beyond reading the operations
  at an index is used.

  The readers `row3` and `row2` take a row out of a stack of matrices and out of a matrix, with indices built from
  coordinates.
-/
import Idealize.ShloMosaic.PureOps.Ideal
import Idealize.ShloMosaic.Lib.ValueIdx

noncomputable section

namespace Cert.Siren

open Idealize.ShloMosaic Idealize.ShloMosaic.ValueIdx

/-- One affine layer on a row: `(x · W + β) j = (∑ k, x k * W k j) + β j`. -/
def lin {K J : ℕ} (x : Fin K → EReal) (W : Fin K → Fin J → EReal) (β : Fin J → EReal) : Fin J → EReal :=
  fun j => (∑ k : Fin K, x k * W k j) + β j

/-- The activation on a row: `y ↦ sin (30 · y)`, the factor 30 the single-precision word `0x41F00000`. -/
def act {J : ℕ} (y : Fin J → EReal) : Fin J → EReal :=
  fun j => Ideal.sin (Ideal.ofBits .f32 0x41F00000#32 * y j)

/-- The network on one coordinate row `x` with one sample's weights and biases. -/
def net (x : Fin 2 → EReal)
    (W0 : Fin 2 → Fin 256 → EReal) (W1 W2 W3 : Fin 256 → Fin 256 → EReal) (W4 : Fin 256 → Fin 3 → EReal)
    (β0 β1 β2 β3 : Fin 256 → EReal) (β4 : Fin 3 → EReal) : Fin 3 → EReal :=
  lin (act (lin (act (lin (act (lin (act (lin x W0 β0)) W1 β1)) W2 β2)) W3 β3)) W4 β4

/-- Row `n` of matrix `b` of a stack `[B, N, K]`; with `n` left open, matrix `b` itself as rows of columns. -/
def row3 {B N K : ℕ} (a : (⟨3, ![B, N, K]⟩ : Shape).Idx → EReal) (b : Fin B) (n : Fin N) : Fin K → EReal :=
  fun k => a (ix3 b n k)

/-- Row `b` of a matrix `[B, J]`. -/
def row2 {B J : ℕ} (a : (⟨2, ![B, J]⟩ : Shape).Idx → EReal) (b : Fin B) : Fin J → EReal :=
  fun j => a (ix2 b j)

end Cert.Siren

end
-- ==== Proof.RefRows.lean ====
/-
  The idealized reference on one row.

  The reference computes the network for all 32 samples and all 16384 coordinate rows at once: per layer a batched
  `dot_general` (sample axis against sample axis, the left operand's last axis contracted with the weight stack's middle
  axis), the bias matrix broadcast along the rows, and on the first four layers the product with 30 and the sine. Read at
  sample `b` and row `n`, each stage looks only at row `n` of sample `b` of the stage before it, at matrix `b` of the weight
  stack and at row `b` of the bias matrix. So row `(b, n)` of the result is `Cert.Siren.net` of row `(b, n)` of the
  coordinates with sample `b`'s weights and biases.

  Each stage's index maps are identified, coordinate by coordinate, with the indices `(b, n, k)`, `(b, k, j)` and `(b, j)`.
-/
import proofs.«119944_j15745350108029_1_alg».proof.Proof.Gen.ReferenceIdeal.Read
import proofs.«119944_j15745350108029_1_alg».proof.Proof.Spec

noncomputable section

namespace Cert.ReferenceIdeal.Rows

open Cert.ReferenceIdeal Cert.ReferenceIdeal.Read Idealize.ShloMosaic Idealize.ShloMosaic.ValueIdx Cert.Siren

variable (x0 : (⟨S32x16384x2, .f32⟩ : BufTy).Contents (Elt Ideal)) (x1 : (⟨S32x197888, .f32⟩ : BufTy).Contents (Elt Ideal))
  (x2 : (⟨S32x1027, .f32⟩ : BufTy).Contents (Elt Ideal)) (b : Fin 32) (n : Fin 16384)

/-! ## The affine stages -/

/-- First layer: row `(b, n)` of the coordinates times matrix `b` of the first weight stack, plus row `b` of the first
    bias matrix. -/
theorem affine1_row :
    row3 (val_main_v7 (F := Ideal) x0 x1 x2) b n
      = lin (row3 x0 b n) (row3 (val_main_v3 (F := Ideal) x1) b) (row2 (val_main_v2 (F := Ideal) x2) b) := by
  funext j
  show val_main_v7 (F := Ideal) x0 x1 x2 (ix3 b n j) = _
  rw [val_main_v7_apply, val_main_v4_apply, val_main_v6_apply, val_main_v5_apply]
  have el : ∀ k : Fin 2, lidx_main_v4 (ix3 b n j) k = ix3 b n k := fun k => funext fun a => Fin.ext (by
    match a with
    | ⟨0, _⟩ => rfl
    | ⟨1, _⟩ => rfl
    | ⟨2, _⟩ => rfl)
  have er : ∀ k : Fin 2, ridx_main_v4 (ix3 b n j) k = ix3 b k j := fun k => funext fun a => Fin.ext (by
    match a with
    | ⟨0, _⟩ => rfl
    | ⟨1, _⟩ => rfl
    | ⟨2, _⟩ => rfl)
  have eb : idx_main_v5 (idx_main_v6 (ix3 b n j)) = ix2 b j := funext fun a => Fin.ext (by
    match a with
    | ⟨0, _⟩ => rfl
    | ⟨1, _⟩ => rfl)
  simp only [el, er, eb]
  rfl

/-- Second layer: row `(b, n)` of the first activation times matrix `b` of the second weight stack, plus the bias row. -/
theorem affine2_row :
    row3 (val_main_v18 (F := Ideal) x0 x1 x2) b n
      = lin (row3 (val_main_v10 (F := Ideal) x0 x1 x2) b n) (row3 (val_main_v14 (F := Ideal) x1) b) (row2 (val_main_v13 (F := Ideal) x2) b) := by
  funext j
  show val_main_v18 (F := Ideal) x0 x1 x2 (ix3 b n j) = _
  rw [val_main_v18_apply, val_main_v15_apply, val_main_v17_apply, val_main_v16_apply]
  have el : ∀ k : Fin 256, lidx_main_v15 (ix3 b n j) k = ix3 b n k := fun k => funext fun a => Fin.ext (by
    match a with
    | ⟨0, _⟩ => rfl
    | ⟨1, _⟩ => rfl
    | ⟨2, _⟩ => rfl)
  have er : ∀ k : Fin 256, ridx_main_v15 (ix3 b n j) k = ix3 b k j := fun k => funext fun a => Fin.ext (by
    match a with
    | ⟨0, _⟩ => rfl
    | ⟨1, _⟩ => rfl
    | ⟨2, _⟩ => rfl)
  have eb : idx_main_v16 (idx_main_v17 (ix3 b n j)) = ix2 b j := funext fun a => Fin.ext (by
    match a with
    | ⟨0, _⟩ => rfl
    | ⟨1, _⟩ => rfl)
  simp only [el, er, eb]
  rfl

/-- Third layer. -/
theorem affine3_row :
    row3 (val_main_v29 (F := Ideal) x0 x1 x2) b n
      = lin (row3 (val_main_v21 (F := Ideal) x0 x1 x2) b n) (row3 (val_main_v25 (F := Ideal) x1) b) (row2 (val_main_v24 (F := Ideal) x2) b) := by
  funext j
  show val_main_v29 (F := Ideal) x0 x1 x2 (ix3 b n j) = _
  rw [val_main_v29_apply, val_main_v26_apply, val_main_v28_apply, val_main_v27_apply]
  have el : ∀ k : Fin 256, lidx_main_v26 (ix3 b n j) k = ix3 b n k := fun k => funext fun a => Fin.ext (by
    match a with
    | ⟨0, _⟩ => rfl
    | ⟨1, _⟩ => rfl
    | ⟨2, _⟩ => rfl)
  have er : ∀ k : Fin 256, ridx_main_v26 (ix3 b n j) k = ix3 b k j := fun k => funext fun a => Fin.ext (by
    match a with
    | ⟨0, _⟩ => rfl
    | ⟨1, _⟩ => rfl
    | ⟨2, _⟩ => rfl)
  have eb : idx_main_v27 (idx_main_v28 (ix3 b n j)) = ix2 b j := funext fun a => Fin.ext (by
    match a with
    | ⟨0, _⟩ => rfl
    | ⟨1, _⟩ => rfl)
  simp only [el, er, eb]
  rfl

/-- Fourth layer. -/
theorem affine4_row :
    row3 (val_main_v40 (F := Ideal) x0 x1 x2) b n
      = lin (row3 (val_main_v32 (F := Ideal) x0 x1 x2) b n) (row3 (val_main_v36 (F := Ideal) x1) b) (row2 (val_main_v35 (F := Ideal) x2) b) := by
  funext j
  show val_main_v40 (F := Ideal) x0 x1 x2 (ix3 b n j) = _
  rw [val_main_v40_apply, val_main_v37_apply, val_main_v39_apply, val_main_v38_apply]
  have el : ∀ k : Fin 256, lidx_main_v37 (ix3 b n j) k = ix3 b n k := fun k => funext fun a => Fin.ext (by
    match a with
    | ⟨0, _⟩ => rfl
    | ⟨1, _⟩ => rfl
    | ⟨2, _⟩ => rfl)
  have er : ∀ k : Fin 256, ridx_main_v37 (ix3 b n j) k = ix3 b k j := fun k => funext fun a => Fin.ext (by
    match a with
    | ⟨0, _⟩ => rfl
    | ⟨1, _⟩ => rfl
    | ⟨2, _⟩ => rfl)
  have eb : idx_main_v38 (idx_main_v39 (ix3 b n j)) = ix2 b j := funext fun a => Fin.ext (by
    match a with
    | ⟨0, _⟩ => rfl
    | ⟨1, _⟩ => rfl)
  simp only [el, er, eb]
  rfl

/-- Last layer: the `[256, 3]` matrices and the three-entry bias rows. -/
theorem affine5_row :
    row3 (val_main_v51 (F := Ideal) x0 x1 x2) b n
      = lin (row3 (val_main_v43 (F := Ideal) x0 x1 x2) b n) (row3 (val_main_v47 (F := Ideal) x1) b) (row2 (val_main_v46 (F := Ideal) x2) b) := by
  funext j
  show val_main_v51 (F := Ideal) x0 x1 x2 (ix3 b n j) = _
  rw [val_main_v51_apply, val_main_v48_apply, val_main_v50_apply, val_main_v49_apply]
  have el : ∀ k : Fin 256, lidx_main_v48 (ix3 b n j) k = ix3 b n k := fun k => funext fun a => Fin.ext (by
    match a with
    | ⟨0, _⟩ => rfl
    | ⟨1, _⟩ => rfl
    | ⟨2, _⟩ => rfl)
  have er : ∀ k : Fin 256, ridx_main_v48 (ix3 b n j) k = ix3 b k j := fun k => funext fun a => Fin.ext (by
    match a with
    | ⟨0, _⟩ => rfl
    | ⟨1, _⟩ => rfl
    | ⟨2, _⟩ => rfl)
  have eb : idx_main_v49 (idx_main_v50 (ix3 b n j)) = ix2 b j := funext fun a => Fin.ext (by
    match a with
    | ⟨0, _⟩ => rfl
    | ⟨1, _⟩ => rfl)
  simp only [el, er, eb]
  rfl

/-! ## The activation stages: the host's sine of the constant 30, broadcast, times the stage before -/

theorem act1_row : row3 (val_main_v10 (F := Ideal) x0 x1 x2) b n = act (row3 (val_main_v7 (F := Ideal) x0 x1 x2) b n) := by
  funext j
  show val_main_v10 (F := Ideal) x0 x1 x2 (ix3 b n j) = _
  rw [val_main_v10_apply, val_main_v9_apply, val_main_v8_apply, val_main_cst_apply]
  rfl

theorem act2_row : row3 (val_main_v21 (F := Ideal) x0 x1 x2) b n = act (row3 (val_main_v18 (F := Ideal) x0 x1 x2) b n) := by
  funext j
  show val_main_v21 (F := Ideal) x0 x1 x2 (ix3 b n j) = _
  rw [val_main_v21_apply, val_main_v20_apply, val_main_v19_apply, val_main_cst_0_apply]
  rfl

theorem act3_row : row3 (val_main_v32 (F := Ideal) x0 x1 x2) b n = act (row3 (val_main_v29 (F := Ideal) x0 x1 x2) b n) := by
  funext j
  show val_main_v32 (F := Ideal) x0 x1 x2 (ix3 b n j) = _
  rw [val_main_v32_apply, val_main_v31_apply, val_main_v30_apply, val_main_cst_1_apply]
  rfl

theorem act4_row : row3 (val_main_v43 (F := Ideal) x0 x1 x2) b n = act (row3 (val_main_v40 (F := Ideal) x0 x1 x2) b n) := by
  funext j
  show val_main_v43 (F := Ideal) x0 x1 x2 (ix3 b n j) = _
  rw [val_main_v43_apply, val_main_v42_apply, val_main_v41_apply, val_main_cst_2_apply]
  rfl

/-! ## The result on a row -/

/-- Row `(b, n)` of the reference's result is the network of row `(b, n)` of the coordinates with sample `b`'s five
    matrices (each the transposed, reshaped slice of the flat weights) and five bias rows (slices of the flat biases). -/
theorem result_row :
    row3 (val_main_v51 (F := Ideal) x0 x1 x2) b n
      = net (row3 x0 b n)
          (row3 (val_main_v3 (F := Ideal) x1) b) (row3 (val_main_v14 (F := Ideal) x1) b) (row3 (val_main_v25 (F := Ideal) x1) b)
          (row3 (val_main_v36 (F := Ideal) x1) b) (row3 (val_main_v47 (F := Ideal) x1) b)
          (row2 (val_main_v2 (F := Ideal) x2) b) (row2 (val_main_v13 (F := Ideal) x2) b) (row2 (val_main_v24 (F := Ideal) x2) b)
          (row2 (val_main_v35 (F := Ideal) x2) b) (row2 (val_main_v46 (F := Ideal) x2) b) := by
  unfold net
  rw [affine5_row, act4_row, affine4_row, act3_row, affine3_row, act2_row, affine2_row, act1_row, affine1_row]

/-! ## The result as one function of the arguments -/

/-- The network on row `(b, n)`: output row of the network on row `(b, n)` of the coordinates `x0`, with sample `b`'s five
    matrices cut out of the flat weights `x1` (slice, reshape to `[out, in]`, transpose) and its five bias rows cut out of
    the flat biases `x2`. -/
def resultAt (x0 : (⟨S32x16384x2, .f32⟩ : BufTy).Contents (Elt Ideal)) (x1 : (⟨S32x197888, .f32⟩ : BufTy).Contents (Elt Ideal))
    (x2 : (⟨S32x1027, .f32⟩ : BufTy).Contents (Elt Ideal)) (b : Fin 32) (n : Fin 16384) : Fin 3 → EReal :=
  net (row3 x0 b n)
    (row3 (val_main_v3 (F := Ideal) x1) b) (row3 (val_main_v14 (F := Ideal) x1) b) (row3 (val_main_v25 (F := Ideal) x1) b)
    (row3 (val_main_v36 (F := Ideal) x1) b) (row3 (val_main_v47 (F := Ideal) x1) b)
    (row2 (val_main_v2 (F := Ideal) x2) b) (row2 (val_main_v13 (F := Ideal) x2) b) (row2 (val_main_v24 (F := Ideal) x2) b)
    (row2 (val_main_v35 (F := Ideal) x2) b) (row2 (val_main_v46 (F := Ideal) x2) b)

/-- The network applied to every sample and every coordinate row: entry `(b, n, j)` is output `j` on row `(b, n)`. -/
def result (x0 : (⟨S32x16384x2, .f32⟩ : BufTy).Contents (Elt Ideal)) (x1 : (⟨S32x197888, .f32⟩ : BufTy).Contents (Elt Ideal))
    (x2 : (⟨S32x1027, .f32⟩ : BufTy).Contents (Elt Ideal)) : S32x16384x3.Idx → EReal :=
  fun i => resultAt x0 x1 x2 (i 0) (i 1) (i 2)

/-- The reference's last stage IS that function. -/
theorem reference_result : val_main_v51 (F := Ideal) x0 x1 x2 = result x0 x1 x2 := by
  funext i
  obtain ⟨b, n, j, rfl⟩ : ∃ (b : Fin 32) (n : Fin 16384) (j : Fin 3), i = ix3 b n j := ⟨i 0, i 1, i 2, eq_ix3 i⟩
  exact congrFun (result_row x0 x1 x2 b n) j

end Cert.ReferenceIdeal.Rows

end
-- ==== Proof.KernelBlocks.lean ====
/-
  The kernel's input blocks, read off their arrays.

  The grid has a point for each (sample, row tile): 32 samples by 4 tiles of 4096 coordinate rows. The output window's
  block index at a point is (sample, tile, 0). The coordinate window moves with it — same sample, same tile —, so row `r`
  of its block is row `tile · 4096 + r` of the sample's coordinates. Each of the ten weight and bias windows follows the
  sample alone and stages the sample's whole matrix or bias row, whatever the tile.

  A block's coordinate on an axis is always (block index) × (block extent) + (coordinate inside the block); the relations
  between the twelve windows' block indices are decided once over the 128 grid points. The sample and the row are carried
  as typed coordinates `e0 : Fin 32`, `e1 : Fin 16384` with their values given by the output's block index.
-/
import proofs.«119944_j15745350108029_1_alg».proof.Proof.Gen.KernelIdeal.Value
import proofs.«119944_j15745350108029_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx Cert.Siren

variable (m : (ℓ : Loc nD τ sig) → Buf (Elt Ideal) ℓ)

/-! ## The block indices, decided over the grid -/

/-- The output's block index: a sample, a row tile, column block 0. -/
theorem idx_out : ∀ t : Fin cfg0.N, win0_11.index t (0 : Fin 3) ≤ 31 ∧ win0_11.index t (1 : Fin 3) ≤ 3 ∧ win0_11.index t (2 : Fin 3) = 0 :=
  (by decide +kernel : ∀ t : Fin grid0.N, _)

/-- Every (sample, row tile) is some point's. -/
theorem idx_onto : ∀ (q0 : Fin 32) (q1 : Fin 4), ∃ t : Fin cfg0.N, win0_11.index t = ![q0.val, q1.val, 0] :=
  (by decide +kernel : ∀ (q0 : Fin 32) (q1 : Fin 4), ∃ t : Fin grid0.N, win0_11.index t = ![q0.val, q1.val, 0])

/-- The coordinate window moves with the output: same sample, same row tile. -/
theorem idx_coords : ∀ t : Fin cfg0.N, win0_0.index t (0 : Fin 3) = win0_11.index t (0 : Fin 3)
    ∧ win0_0.index t (1 : Fin 3) = win0_11.index t (1 : Fin 3) ∧ win0_0.index t (2 : Fin 3) = 0 :=
  (by decide +kernel : ∀ t : Fin grid0.N, _)

/-- Each weight and bias window follows the sample only. -/
theorem idx_w1 : ∀ t : Fin cfg0.N, win0_1.index t (0 : Fin 3) = win0_11.index t (0 : Fin 3)
    ∧ win0_1.index t (1 : Fin 3) = 0 ∧ win0_1.index t (2 : Fin 3) = 0 :=
  (by decide +kernel : ∀ t : Fin grid0.N, _)
theorem idx_w2 : ∀ t : Fin cfg0.N, win0_2.index t (0 : Fin 3) = win0_11.index t (0 : Fin 3)
    ∧ win0_2.index t (1 : Fin 3) = 0 ∧ win0_2.index t (2 : Fin 3) = 0 :=
  (by decide +kernel : ∀ t : Fin grid0.N, _)
theorem idx_w3 : ∀ t : Fin cfg0.N, win0_3.index t (0 : Fin 3) = win0_11.index t (0 : Fin 3)
    ∧ win0_3.index t (1 : Fin 3) = 0 ∧ win0_3.index t (2 : Fin 3) = 0 :=
  (by decide +kernel : ∀ t : Fin grid0.N, _)
theorem idx_w4 : ∀ t : Fin cfg0.N, win0_4.index t (0 : Fin 3) = win0_11.index t (0 : Fin 3)
    ∧ win0_4.index t (1 : Fin 3) = 0 ∧ win0_4.index t (2 : Fin 3) = 0 :=
  (by decide +kernel : ∀ t : Fin grid0.N, _)
theorem idx_w5 : ∀ t : Fin cfg0.N, win0_5.index t (0 : Fin 3) = win0_11.index t (0 : Fin 3)
    ∧ win0_5.index t (1 : Fin 3) = 0 ∧ win0_5.index t (2 : Fin 3) = 0 :=
  (by decide +kernel : ∀ t : Fin grid0.N, _)
theorem idx_w6 : ∀ t : Fin cfg0.N, win0_6.index t (0 : Fin 3) = win0_11.index t (0 : Fin 3)
    ∧ win0_6.index t (1 : Fin 3) = 0 ∧ win0_6.index t (2 : Fin 3) = 0 :=
  (by decide +kernel : ∀ t : Fin grid0.N, _)
theorem idx_w7 : ∀ t : Fin cfg0.N, win0_7.index t (0 : Fin 3) = win0_11.index t (0 : Fin 3)
    ∧ win0_7.index t (1 : Fin 3) = 0 ∧ win0_7.index t (2 : Fin 3) = 0 :=
  (by decide +kernel : ∀ t : Fin grid0.N, _)
theorem idx_w8 : ∀ t : Fin cfg0.N, win0_8.index t (0 : Fin 3) = win0_11.index t (0 : Fin 3)
    ∧ win0_8.index t (1 : Fin 3) = 0 ∧ win0_8.index t (2 : Fin 3) = 0 :=
  (by decide +kernel : ∀ t : Fin grid0.N, _)
theorem idx_w9 : ∀ t : Fin cfg0.N, win0_9.index t (0 : Fin 3) = win0_11.index t (0 : Fin 3)
    ∧ win0_9.index t (1 : Fin 3) = 0 ∧ win0_9.index t (2 : Fin 3) = 0 :=
  (by decide +kernel : ∀ t : Fin grid0.N, _)
theorem idx_w10 : ∀ t : Fin cfg0.N, win0_10.index t (0 : Fin 3) = win0_11.index t (0 : Fin 3)
    ∧ win0_10.index t (1 : Fin 3) = 0 ∧ win0_10.index t (2 : Fin 3) = 0 :=
  (by decide +kernel : ∀ t : Fin grid0.N, _)

/-! ## The blocks -/

variable (c : Dev nD) (t : Fin cfg0.N) (e0 : Fin 32)

/-- Row `r` of the coordinate block is row `tile · 4096 + r` of the sample's coordinates. -/
theorem coords_block (he0 : e0.val = win0_11.index t (0 : Fin 3)) (r : Fin 4096) (e1 : Fin 16384) (he1 : e1.val = win0_11.index t (1 : Fin 3) * 4096 + r.val) :
    row3 (iblk m c 0 t) 0 r = row3 (V m c main_v30 : S32x16384x2.Idx → EReal) e0 e1 := by
  obtain ⟨a0, a1, a2⟩ := idx_coords t
  funext k
  show V m c main_v30 (((cfg0.win 0).blk t).view.emb (ix3 0 r k)) = V m c main_v30 (ix3 e0 e1 k)
  refine congrArg _ (funext fun a => Fin.ext ?_)
  match a with
  | ⟨0, _⟩ => show win0_0.index t (0 : Fin 3) * 1 + 1 * 0 = e0.val; omega
  | ⟨1, _⟩ => show win0_0.index t (1 : Fin 3) * 4096 + 1 * r.val = e1.val; omega
  | ⟨2, _⟩ => show win0_0.index t (2 : Fin 3) * 2 + 1 * k.val = k.val; omega

/-- The first weight block is the sample's `[2, 256]` matrix. -/
theorem w0_block (he0 : e0.val = win0_11.index t (0 : Fin 3)) : row3 (iblk m c 1 t) 0 = row3 (V m c main_v3 : S32x2x256.Idx → EReal) e0 := by
  obtain ⟨p0, p1, p2⟩ := idx_w1 t
  funext k j
  show V m c main_v3 (((cfg0.win 1).blk t).view.emb (ix3 0 k j)) = V m c main_v3 (ix3 e0 k j)
  refine congrArg _ (funext fun a => Fin.ext ?_)
  match a with
  | ⟨0, _⟩ => show win0_1.index t (0 : Fin 3) * 1 + 1 * 0 = e0.val; omega
  | ⟨1, _⟩ => show win0_1.index t (1 : Fin 3) * 2 + 1 * k.val = k.val; omega
  | ⟨2, _⟩ => show win0_1.index t (2 : Fin 3) * 256 + 1 * j.val = j.val; omega

/-- The second weight block is the sample's first `[256, 256]` matrix. -/
theorem w1_block (he0 : e0.val = win0_11.index t (0 : Fin 3)) : row3 (iblk m c 2 t) 0 = row3 (V m c main_v7 : S32x256x256.Idx → EReal) e0 := by
  obtain ⟨p0, p1, p2⟩ := idx_w2 t
  funext k j
  show V m c main_v7 (((cfg0.win 2).blk t).view.emb (ix3 0 k j)) = V m c main_v7 (ix3 e0 k j)
  refine congrArg _ (funext fun a => Fin.ext ?_)
  match a with
  | ⟨0, _⟩ => show win0_2.index t (0 : Fin 3) * 1 + 1 * 0 = e0.val; omega
  | ⟨1, _⟩ => show win0_2.index t (1 : Fin 3) * 256 + 1 * k.val = k.val; omega
  | ⟨2, _⟩ => show win0_2.index t (2 : Fin 3) * 256 + 1 * j.val = j.val; omega

/-- The third weight block. -/
theorem w2_block (he0 : e0.val = win0_11.index t (0 : Fin 3)) : row3 (iblk m c 3 t) 0 = row3 (V m c main_v11 : S32x256x256.Idx → EReal) e0 := by
  obtain ⟨p0, p1, p2⟩ := idx_w3 t
  funext k j
  show V m c main_v11 (((cfg0.win 3).blk t).view.emb (ix3 0 k j)) = V m c main_v11 (ix3 e0 k j)
  refine congrArg _ (funext fun a => Fin.ext ?_)
  match a with
  | ⟨0, _⟩ => show win0_3.index t (0 : Fin 3) * 1 + 1 * 0 = e0.val; omega
  | ⟨1, _⟩ => show win0_3.index t (1 : Fin 3) * 256 + 1 * k.val = k.val; omega
  | ⟨2, _⟩ => show win0_3.index t (2 : Fin 3) * 256 + 1 * j.val = j.val; omega

/-- The fourth weight block. -/
theorem w3_block (he0 : e0.val = win0_11.index t (0 : Fin 3)) : row3 (iblk m c 4 t) 0 = row3 (V m c main_v15 : S32x256x256.Idx → EReal) e0 := by
  obtain ⟨p0, p1, p2⟩ := idx_w4 t
  funext k j
  show V m c main_v15 (((cfg0.win 4).blk t).view.emb (ix3 0 k j)) = V m c main_v15 (ix3 e0 k j)
  refine congrArg _ (funext fun a => Fin.ext ?_)
  match a with
  | ⟨0, _⟩ => show win0_4.index t (0 : Fin 3) * 1 + 1 * 0 = e0.val; omega
  | ⟨1, _⟩ => show win0_4.index t (1 : Fin 3) * 256 + 1 * k.val = k.val; omega
  | ⟨2, _⟩ => show win0_4.index t (2 : Fin 3) * 256 + 1 * j.val = j.val; omega

/-- The last weight block is the sample's `[256, 3]` matrix. -/
theorem w4_block (he0 : e0.val = win0_11.index t (0 : Fin 3)) : row3 (iblk m c 5 t) 0 = row3 (V m c main_v19 : S32x256x3.Idx → EReal) e0 := by
  obtain ⟨p0, p1, p2⟩ := idx_w5 t
  funext k j
  show V m c main_v19 (((cfg0.win 5).blk t).view.emb (ix3 0 k j)) = V m c main_v19 (ix3 e0 k j)
  refine congrArg _ (funext fun a => Fin.ext ?_)
  match a with
  | ⟨0, _⟩ => show win0_5.index t (0 : Fin 3) * 1 + 1 * 0 = e0.val; omega
  | ⟨1, _⟩ => show win0_5.index t (1 : Fin 3) * 256 + 1 * k.val = k.val; omega
  | ⟨2, _⟩ => show win0_5.index t (2 : Fin 3) * 3 + 1 * j.val = j.val; omega

/-- The first bias block is the sample's one row. -/
theorem b0_block (he0 : e0.val = win0_11.index t (0 : Fin 3)) : row3 (iblk m c 6 t) 0 0 = row3 (V m c main_v21 : S32x1x256.Idx → EReal) e0 0 := by
  obtain ⟨p0, p1, p2⟩ := idx_w6 t
  funext j
  show V m c main_v21 (((cfg0.win 6).blk t).view.emb (ix3 0 0 j)) = V m c main_v21 (ix3 e0 0 j)
  refine congrArg _ (funext fun a => Fin.ext ?_)
  match a with
  | ⟨0, _⟩ => show win0_6.index t (0 : Fin 3) * 1 + 1 * 0 = e0.val; omega
  | ⟨1, _⟩ => show win0_6.index t (1 : Fin 3) * 1 + 1 * 0 = 0; omega
  | ⟨2, _⟩ => show win0_6.index t (2 : Fin 3) * 256 + 1 * j.val = j.val; omega

/-- The second bias block. -/
theorem b1_block (he0 : e0.val = win0_11.index t (0 : Fin 3)) : row3 (iblk m c 7 t) 0 0 = row3 (V m c main_v23 : S32x1x256.Idx → EReal) e0 0 := by
  obtain ⟨p0, p1, p2⟩ := idx_w7 t
  funext j
  show V m c main_v23 (((cfg0.win 7).blk t).view.emb (ix3 0 0 j)) = V m c main_v23 (ix3 e0 0 j)
  refine congrArg _ (funext fun a => Fin.ext ?_)
  match a with
  | ⟨0, _⟩ => show win0_7.index t (0 : Fin 3) * 1 + 1 * 0 = e0.val; omega
  | ⟨1, _⟩ => show win0_7.index t (1 : Fin 3) * 1 + 1 * 0 = 0; omega
  | ⟨2, _⟩ => show win0_7.index t (2 : Fin 3) * 256 + 1 * j.val = j.val; omega

/-- The third bias block. -/
theorem b2_block (he0 : e0.val = win0_11.index t (0 : Fin 3)) : row3 (iblk m c 8 t) 0 0 = row3 (V m c main_v25 : S32x1x256.Idx → EReal) e0 0 := by
  obtain ⟨p0, p1, p2⟩ := idx_w8 t
  funext j
  show V m c main_v25 (((cfg0.win 8).blk t).view.emb (ix3 0 0 j)) = V m c main_v25 (ix3 e0 0 j)
  refine congrArg _ (funext fun a => Fin.ext ?_)
  match a with
  | ⟨0, _⟩ => show win0_8.index t (0 : Fin 3) * 1 + 1 * 0 = e0.val; omega
  | ⟨1, _⟩ => show win0_8.index t (1 : Fin 3) * 1 + 1 * 0 = 0; omega
  | ⟨2, _⟩ => show win0_8.index t (2 : Fin 3) * 256 + 1 * j.val = j.val; omega

/-- The fourth bias block. -/
theorem b3_block (he0 : e0.val = win0_11.index t (0 : Fin 3)) : row3 (iblk m c 9 t) 0 0 = row3 (V m c main_v27 : S32x1x256.Idx → EReal) e0 0 := by
  obtain ⟨p0, p1, p2⟩ := idx_w9 t
  funext j
  show V m c main_v27 (((cfg0.win 9).blk t).view.emb (ix3 0 0 j)) = V m c main_v27 (ix3 e0 0 j)
  refine congrArg _ (funext fun a => Fin.ext ?_)
  match a with
  | ⟨0, _⟩ => show win0_9.index t (0 : Fin 3) * 1 + 1 * 0 = e0.val; omega
  | ⟨1, _⟩ => show win0_9.index t (1 : Fin 3) * 1 + 1 * 0 = 0; omega
  | ⟨2, _⟩ => show win0_9.index t (2 : Fin 3) * 256 + 1 * j.val = j.val; omega

/-- The last bias block is the sample's three-entry row. -/
theorem b4_block (he0 : e0.val = win0_11.index t (0 : Fin 3)) : row3 (iblk m c 10 t) 0 0 = row3 (V m c main_v29 : S32x1x3.Idx → EReal) e0 0 := by
  obtain ⟨p0, p1, p2⟩ := idx_w10 t
  funext j
  show V m c main_v29 (((cfg0.win 10).blk t).view.emb (ix3 0 0 j)) = V m c main_v29 (ix3 e0 0 j)
  refine congrArg _ (funext fun a => Fin.ext ?_)
  match a with
  | ⟨0, _⟩ => show win0_10.index t (0 : Fin 3) * 1 + 1 * 0 = e0.val; omega
  | ⟨1, _⟩ => show win0_10.index t (1 : Fin 3) * 1 + 1 * 0 = 0; omega
  | ⟨2, _⟩ => show win0_10.index t (2 : Fin 3) * 3 + 1 * j.val = j.val; omega

end Cert.KernelIdeal.Blocks

end
-- ==== Proof.KernelRows.lean ====
/-
  The idealized kernel's body on one row.

  At a grid point the body holds a tile of 4096 coordinate rows and one sample's five weight matrices and bias rows. Each
  of its five layers is a matrix product into a zero accumulator, plus the bias row repeated down the tile; the first
  four are followed by the product with 30 and the sine. Read at row `r` every one of these operations looks only at row
  `r` of its left operand, so row `r` of the stored tile is the network `Cert.Siren.net` of row `r` of the coordinate tile.

  A matrix product into the zero accumulator, read at `(r, j)`, is `∑ k, lhs (r, k) * rhs (k, j)`: the dot's own operand
  indices are identified with these coordinates axis by axis, and the sum over the dot's one contraction axis is
  re-indexed over `Fin K`. Changing the float format is the identity on extended reals.
-/
import proofs.«119944_j15745350108029_1_alg».proof.Proof.Gen.KernelIdeal.Skeleton
import proofs.«119944_j15745350108029_1_alg».proof.Proof.Spec
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx Cert.Siren

/-! ## The product `[4096, 2] × [2, 256]` read at a row -/

theorem lhsIn_0 (i : S4096x256.Idx) (q : dot_S4096x2_S2x256_S4096x256_1_0_0_1_n_n.contr.Idx) :
    (dot_S4096x2_S2x256_S4096x256_1_0_0_1_n_n.lhsIdx i q 0).val = (i 0).val := by
  unfold DotDims.lhsIdx
  rw [dif_neg (show ¬(0 : Fin S4096x2.rank) ∈ dot_S4096x2_S2x256_S4096x256_1_0_0_1_n_n.lhsBatch by decide), dif_pos (show (0 : Fin S4096x2.rank) ∈ dot_S4096x2_S2x256_S4096x256_1_0_0_1_n_n.lhsNonContracting by decide)]
  rfl
theorem lhsIn_1 (i : S4096x256.Idx) (q : dot_S4096x2_S2x256_S4096x256_1_0_0_1_n_n.contr.Idx) :
    (dot_S4096x2_S2x256_S4096x256_1_0_0_1_n_n.lhsIdx i q 1).val = (q ⟨0, by decide⟩).val :=
  dot_S4096x2_S2x256_S4096x256_1_0_0_1_n_n.lhsIdx_val_of_single rfl i q
theorem rhsIn_0 (i : S4096x256.Idx) (q : dot_S4096x2_S2x256_S4096x256_1_0_0_1_n_n.contr.Idx) :
    (dot_S4096x2_S2x256_S4096x256_1_0_0_1_n_n.rhsIdx i q 0).val = (q ⟨0, by decide⟩).val :=
  dot_S4096x2_S2x256_S4096x256_1_0_0_1_n_n.rhsIdx_val_of_single rfl i q
theorem rhsIn_1 (i : S4096x256.Idx) (q : dot_S4096x2_S2x256_S4096x256_1_0_0_1_n_n.contr.Idx) :
    (dot_S4096x2_S2x256_S4096x256_1_0_0_1_n_n.rhsIdx i q 1).val = (i 1).val := by
  unfold DotDims.rhsIdx
  rw [dif_neg (show ¬(1 : Fin S2x256.rank) ∈ dot_S4096x2_S2x256_S4096x256_1_0_0_1_n_n.rhsBatch by decide), dif_pos (show (1 : Fin S2x256.rank) ∈ dot_S4096x2_S2x256_S4096x256_1_0_0_1_n_n.rhsNonContracting by decide)]
  rfl

/-- The product into the zero accumulator at `(r, j)` is the sum over the 2 columns of the left row times the right column. -/
theorem matmulIn_apply {φ₁ φ₂ : FTy} (l : FVec Ideal S4096x2 φ₁) (w : FVec Ideal S2x256 φ₂) (r : Fin 4096) (j : Fin 256) :
    matmul dot_S4096x2_S2x256_S4096x256_1_0_0_1_n_n none l w (constant S4096x256 .f32 0x00000000#32) (ix2 r j)
      = ∑ k : Fin 2, l (ix2 r k) * w (ix2 k j) := by
  simp only [matmul]
  rw [Ideal.matmul_constant_zero_apply, ← Equiv.sum_comp (ValueIdx.contrEquiv1 dot_S4096x2_S2x256_S4096x256_1_0_0_1_n_n 2 rfl rfl).symm]
  refine Finset.sum_congr rfl fun k _ => ?_
  have hk := ValueIdx.contrEquiv1_symm_val dot_S4096x2_S2x256_S4096x256_1_0_0_1_n_n 2 rfl rfl k
  have el : dot_S4096x2_S2x256_S4096x256_1_0_0_1_n_n.lhsIdx (ix2 r j) ((ValueIdx.contrEquiv1 dot_S4096x2_S2x256_S4096x256_1_0_0_1_n_n 2 rfl rfl).symm k) = ix2 r k := funext fun a => Fin.ext (by
    match a with
    | ⟨0, _⟩ => exact lhsIn_0 _ _
    | ⟨1, _⟩ => exact (lhsIn_1 _ _).trans hk)
  have er : dot_S4096x2_S2x256_S4096x256_1_0_0_1_n_n.rhsIdx (ix2 r j) ((ValueIdx.contrEquiv1 dot_S4096x2_S2x256_S4096x256_1_0_0_1_n_n 2 rfl rfl).symm k) = ix2 k j := funext fun a => Fin.ext (by
    match a with
    | ⟨0, _⟩ => exact (rhsIn_0 _ _).trans hk
    | ⟨1, _⟩ => exact rhsIn_1 _ _)
  rw [el, er]

/-! ## The product `[4096, 256] × [256, 256]` read at a row -/

theorem lhsHid_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsHid_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsHid_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsHid_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into the zero accumulator at `(r, j)` is the sum over the 256 columns of the left row times the right column. -/
theorem matmulHid_apply {φ₁ φ₂ : FTy} (l : FVec Ideal S4096x256 φ₁) (w : FVec Ideal S256x256 φ₂) (r : Fin 4096) (j : Fin 256) :
    matmul dot_S4096x256_S256x256_S4096x256_1_0_0_1_n_n none l w (constant S4096x256 .f32 0x00000000#32) (ix2 r j)
      = ∑ k : Fin 256, l (ix2 r k) * w (ix2 k j) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r j) ((ValueIdx.contrEquiv1 dot_S4096x256_S256x256_S4096x256_1_0_0_1_n_n 256 rfl rfl).symm k) = ix2 r k := funext fun a => Fin.ext (by
    match a with
    | ⟨0, _⟩ => exact lhsHid_0 _ _
    | ⟨1, _⟩ => exact (lhsHid_1 _ _).trans hk)
  have er : dot_S4096x256_S256x256_S4096x256_1_0_0_1_n_n.rhsIdx (ix2 r j) ((ValueIdx.contrEquiv1 dot_S4096x256_S256x256_S4096x256_1_0_0_1_n_n 256 rfl rfl).symm k) = ix2 k j := funext fun a => Fin.ext (by
    match a with
    | ⟨0, _⟩ => exact (rhsHid_0 _ _).trans hk
    | ⟨1, _⟩ => exact rhsHid_1 _ _)
  rw [el, er]

/-! ## The product `[4096, 256] × [256, 3]` read at a row -/

theorem lhsOut_0 (i : S4096x3.Idx) (q : dot_S4096x256_S256x3_S4096x3_1_0_0_1_n_n.contr.Idx) :
    (dot_S4096x256_S256x3_S4096x3_1_0_0_1_n_n.lhsIdx i q 0).val = (i 0).val := by
  unfold DotDims.lhsIdx
  rw [dif_neg (show ¬(0 : Fin S4096x256.rank) ∈ dot_S4096x256_S256x3_S4096x3_1_0_0_1_n_n.lhsBatch by decide), dif_pos (show (0 : Fin S4096x256.rank) ∈ dot_S4096x256_S256x3_S4096x3_1_0_0_1_n_n.lhsNonContracting by decide)]
  rfl
theorem lhsOut_1 (i : S4096x3.Idx) (q : dot_S4096x256_S256x3_S4096x3_1_0_0_1_n_n.contr.Idx) :
    (dot_S4096x256_S256x3_S4096x3_1_0_0_1_n_n.lhsIdx i q 1).val = (q ⟨0, by decide⟩).val :=
  dot_S4096x256_S256x3_S4096x3_1_0_0_1_n_n.lhsIdx_val_of_single rfl i q
theorem rhsOut_0 (i : S4096x3.Idx) (q : dot_S4096x256_S256x3_S4096x3_1_0_0_1_n_n.contr.Idx) :
    (dot_S4096x256_S256x3_S4096x3_1_0_0_1_n_n.rhsIdx i q 0).val = (q ⟨0, by decide⟩).val :=
  dot_S4096x256_S256x3_S4096x3_1_0_0_1_n_n.rhsIdx_val_of_single rfl i q
theorem rhsOut_1 (i : S4096x3.Idx) (q : dot_S4096x256_S256x3_S4096x3_1_0_0_1_n_n.contr.Idx) :
    (dot_S4096x256_S256x3_S4096x3_1_0_0_1_n_n.rhsIdx i q 1).val = (i 1).val := by
  unfold DotDims.rhsIdx
  rw [dif_neg (show ¬(1 : Fin S256x3.rank) ∈ dot_S4096x256_S256x3_S4096x3_1_0_0_1_n_n.rhsBatch by decide), dif_pos (show (1 : Fin S256x3.rank) ∈ dot_S4096x256_S256x3_S4096x3_1_0_0_1_n_n.rhsNonContracting by decide)]
  rfl

/-- The product into the zero accumulator at `(r, j)` is the sum over the 256 columns of the left row times the right column. -/
theorem matmulOut_apply {φ₁ φ₂ : FTy} (l : FVec Ideal S4096x256 φ₁) (w : FVec Ideal S256x3 φ₂) (r : Fin 4096) (j : Fin 3) :
    matmul dot_S4096x256_S256x3_S4096x3_1_0_0_1_n_n none l w (constant S4096x3 .f32 0x00000000#32) (ix2 r j)
      = ∑ k : Fin 256, l (ix2 r k) * w (ix2 k j) := by
  simp only [matmul]
  rw [Ideal.matmul_constant_zero_apply, ← Equiv.sum_comp (ValueIdx.contrEquiv1 dot_S4096x256_S256x3_S4096x3_1_0_0_1_n_n 256 rfl rfl).symm]
  refine Finset.sum_congr rfl fun k _ => ?_
  have hk := ValueIdx.contrEquiv1_symm_val dot_S4096x256_S256x3_S4096x3_1_0_0_1_n_n 256 rfl rfl k
  have el : dot_S4096x256_S256x3_S4096x3_1_0_0_1_n_n.lhsIdx (ix2 r j) ((ValueIdx.contrEquiv1 dot_S4096x256_S256x3_S4096x3_1_0_0_1_n_n 256 rfl rfl).symm k) = ix2 r k := funext fun a => Fin.ext (by
    match a with
    | ⟨0, _⟩ => exact lhsOut_0 _ _
    | ⟨1, _⟩ => exact (lhsOut_1 _ _).trans hk)
  have er : dot_S4096x256_S256x3_S4096x3_1_0_0_1_n_n.rhsIdx (ix2 r j) ((ValueIdx.contrEquiv1 dot_S4096x256_S256x3_S4096x3_1_0_0_1_n_n 256 rfl rfl).symm k) = ix2 k j := funext fun a => Fin.ext (by
    match a with
    | ⟨0, _⟩ => exact (rhsOut_0 _ _).trans hk
    | ⟨1, _⟩ => exact rhsOut_1 _ _)
  rw [el, er]

/-! ## The layers on a row -/

/-- A tile recast with a leading unit axis, read at row `r` of its one matrix, is the tile's row `r`. -/
theorem cast_row {N J : ℕ} (v : (⟨2, ![N, J]⟩ : Shape).Idx → EReal) (h : (⟨2, ![N, J]⟩ : Shape).ShapeCasts ⟨3, ![1, N, J]⟩) (r : Fin N) :
    row3 (shapeCast ⟨3, ![1, N, J]⟩ v h) 0 r = row2 v r := by
  funext j
  exact shapeCast_ab_1ab_apply v h 0 r j

/-- The activation: the sine of 30 times a tile, its format then changed, at row `r` is `act` of the tile's row. -/
theorem act_row (v : FVec Ideal S4096x256 .f32) (r : Fin 4096) :
    row2 (truncf .bf16 (sin (mulf (broadcast S4096x256 (Scalar.ofBits .f32 0x41F00000#32)) v)) bitsLt_bf16_f32) r = act (row2 v r) := by
  funext j
  rfl

/-- The first layer at row `r`: the coordinate row times the `[2, 256]` matrix, plus the bias row. -/
theorem in_row (x : Vec Ideal S1x4096x2 .bf16) (w : Vec Ideal S1x2x256 .bf16) (β : Vec Ideal S1x1x256 .f32) (r : Fin 4096) :
    row2 (addf (matmul dot_S4096x2_S2x256_S4096x256_1_0_0_1_n_n none (shapeCast S4096x2 x shapeCasts_S1x4096x2_S4096x2 : FVec Ideal S4096x2 .bf16)
          (shapeCast S2x256 w shapeCasts_S1x2x256_S2x256 : FVec Ideal S2x256 .bf16) (constant S4096x256 .f32 0x00000000#32))
        (broadcastTo S4096x256 (shapeCast S1x256 β shapeCasts_S1x1x256_S1x256 : FVec Ideal S1x256 .f32) broadcasts_S1x256_S4096x256)) r
      = lin (row3 x 0 r) (row3 w 0) (row3 β 0 0) := by
  funext j
  show addf _ _ (ix2 r j) = _
  rw [addf_apply, matmulIn_apply, broadcastTo_1b_ab_apply, shapeCast_1ab_ab_apply]
  simp only [shapeCast_1ab_ab_apply]
  rfl

/-- A hidden layer at row `r`: the row times the `[256, 256]` matrix, plus the bias row. -/
theorem hid_row (h : FVec Ideal S4096x256 .bf16) (w : Vec Ideal S1x256x256 .bf16) (β : Vec Ideal S1x1x256 .f32) (r : Fin 4096) :
    row2 (addf (matmul dot_S4096x256_S256x256_S4096x256_1_0_0_1_n_n none h
          (shapeCast S256x256 w shapeCasts_S1x256x256_S256x256 : FVec Ideal S256x256 .bf16) (constant S4096x256 .f32 0x00000000#32))
        (broadcastTo S4096x256 (shapeCast S1x256 β shapeCasts_S1x1x256_S1x256 : FVec Ideal S1x256 .f32) broadcasts_S1x256_S4096x256)) r
      = lin (row2 h r) (row3 w 0) (row3 β 0 0) := by
  funext j
  show addf _ _ (ix2 r j) = _
  rw [addf_apply, matmulHid_apply, broadcastTo_1b_ab_apply, shapeCast_1ab_ab_apply]
  simp only [shapeCast_1ab_ab_apply]
  rfl

/-- The last layer at row `r`: the row times the `[256, 3]` matrix, plus the bias row. -/
theorem out_row (h : FVec Ideal S4096x256 .bf16) (w : Vec Ideal S1x256x3 .bf16) (β : Vec Ideal S1x1x3 .f32) (r : Fin 4096) :
    row2 (addf (matmul dot_S4096x256_S256x3_S4096x3_1_0_0_1_n_n none h
          (shapeCast S256x3 w shapeCasts_S1x256x3_S256x3 : FVec Ideal S256x3 .bf16) (constant S4096x3 .f32 0x00000000#32))
        (broadcastTo S4096x3 (shapeCast S1x3 β shapeCasts_S1x1x3_S1x3 : FVec Ideal S1x3 .f32) broadcasts_S1x3_S4096x3)) r
      = lin (row2 h r) (row3 w 0) (row3 β 0 0) := by
  funext j
  show addf _ _ (ix2 r j) = _
  rw [addf_apply, matmulOut_apply, broadcastTo_1b_ab_apply, shapeCast_1ab_ab_apply]
  simp only [shapeCast_1ab_ab_apply]
  rfl

/-! ## The body's stored tile on a row -/

/-- Row `r` of the tile the body stores is the network of row `r` of the coordinate tile, with the loaded matrices and
    bias rows: the five layers in turn. -/
theorem payload_row (v0 : Vec Ideal S1x4096x2 .bf16) (v2 : Vec Ideal S1x2x256 .bf16) (v5 : Vec Ideal S1x1x256 .f32)
    (v13 : Vec Ideal S1x256x256 .bf16) (v16 : Vec Ideal S1x1x256 .f32) (v24 : Vec Ideal S1x256x256 .bf16) (v27 : Vec Ideal S1x1x256 .f32)
    (v35 : Vec Ideal S1x256x256 .bf16) (v38 : Vec Ideal S1x1x256 .f32) (v46 : Vec Ideal S1x256x3 .bf16) (v49 : Vec Ideal S1x1x3 .f32)
    (r : Fin 4096) :
    row3 (k0_pay1 (k0_pay2 v0 v2 v5 v13 v16 v24 v27) (Scalar.ofBits .f32 0x41F00000#32) v35 v38 v46 v49) 0 r
      = net (row3 v0 0 r) (row3 v2 0) (row3 v13 0) (row3 v24 0) (row3 v35 0) (row3 v46 0)
          (row3 v5 0 0) (row3 v16 0 0) (row3 v27 0 0) (row3 v38 0 0) (row3 v49 0 0) := by
  unfold k0_pay1 k0_pay2 net
  dsimp only
  rw [cast_row, out_row, act_row, hid_row, act_row, hid_row, act_row, hid_row, act_row, in_row]

end Cert.KernelIdeal.Rows

end
-- ==== Proof.LibMiddleUnit.lean ====
/-
  A unit axis inserted in the MIDDLE of a matrix's shape, read at an index.

  Reshaping an `[a, b]` array to `[a, 1, b]` keeps the row-major order: entry `(i, 0, j)` of the result sits at position
  `(i · 1 + 0) · b + j = i · b + j`, the position of entry `(i, j)` of the operand. The library's layout lemmas cover a
  LEADING unit axis (`[a, b] → [1, a, b]`); this is the same fact for the axis in second place, which is how a bias matrix
  `[samples, width]` becomes a stack of one-row matrices `[samples, 1, width]`.
-/
import Idealize.ShloMosaic.Lib.ValueLayout

namespace Cert.LibMiddleUnit

open Idealize.ShloMosaic Idealize.ShloMosaic.ValueIdx

variable {α : Type}

/-- An `[a, b]` array cast to `[a, 1, b]` reads, at `(i, u, j)`, the operand at `(i, j)`: both indices have the same
    row-major position, the unit coordinate `u` being `0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.LibMiddleUnit
-- ==== Proof.KernelArrays.lean ====
/-
  What the kernel's region finds in its eleven input arrays, at the ideal values.

  Before the one region the idealized kernel's host operations cut the flat weights and biases into the arrays the windows
  stage. They are the reference's own cuts: each weight stack is the slice of the flat weights reshaped to `[32, out, in]`
  and transposed to `[32, in, out]` (the change of float format after it is the identity on extended reals), so it IS the
  reference's stage of the same name; the coordinates are the argument itself; and each bias array is the reference's
  `[32, width]` slice of the flat biases with a unit axis inserted, so its one row `(b, 0, ·)` is row `b` of that slice.
-/
import proofs.«119944_j15745350108029_1_alg».proof.Proof.Gen.KernelIdeal.Frame
import proofs.«119944_j15745350108029_1_alg».proof.Proof.RefRows
import proofs.«119944_j15745350108029_1_alg».proof.Proof.LibMiddleUnit
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.Siren Cert.ReferenceIdeal

variable (m : (ℓ : Loc nD τ sig) → Buf (Elt Ideal) ℓ) (c : Dev nD)

/-! ## The coordinates and the five weight stacks -/

/-- The staged coordinates are the coordinate argument (a change of float format only). -/
theorem coords_entry : (V m c main_v30 : S32x16384x2.Idx → EReal) = m ((c : Thread nD τ).loc main_arg0) := by
  dsimp only [Gen.V, Gen.hostOps0]
  after_results
  rfl

/-- The first weight stack `[32, 2, 256]`. -/
theorem w0_entry : (V m c main_v3 : S32x2x256.Idx → EReal) = Read.val_main_v3 (F := Ideal) (m ((c : Thread nD τ).loc main_arg1)) := by
  dsimp only [Gen.V, Gen.hostOps0]
  after_results
  rfl

/-- The second weight stack `[32, 256, 256]`. -/
theorem w1_entry : (V m c main_v7 : S32x256x256.Idx → EReal) = Read.val_main_v14 (F := Ideal) (m ((c : Thread nD τ).loc main_arg1)) := by
  dsimp only [Gen.V, Gen.hostOps0]
  after_results
  rfl

/-- The third weight stack. -/
theorem w2_entry : (V m c main_v11 : S32x256x256.Idx → EReal) = Read.val_main_v25 (F := Ideal) (m ((c : Thread nD τ).loc main_arg1)) := by
  dsimp only [Gen.V, Gen.hostOps0]
  after_results
  rfl

/-- The fourth weight stack. -/
theorem w3_entry : (V m c main_v15 : S32x256x256.Idx → EReal) = Read.val_main_v36 (F := Ideal) (m ((c : Thread nD τ).loc main_arg1)) := by
  dsimp only [Gen.V, Gen.hostOps0]
  after_results
  rfl

/-- The last weight stack `[32, 256, 3]`. -/
theorem w4_entry : (V m c main_v19 : S32x256x3.Idx → EReal) = Read.val_main_v47 (F := Ideal) (m ((c : Thread nD τ).loc main_arg1)) := by
  dsimp only [Gen.V, Gen.hostOps0]
  after_results
  rfl

/-! ## The five bias arrays: row `(b, 0, ·)` is row `b` of the reference's slice -/

theorem b0_entry (b : Fin 32) : row3 (V m c main_v21 : S32x1x256.Idx → EReal) b 0
    = row2 (Read.val_main_v2 (F := Ideal) (m ((c : Thread nD τ).loc main_arg2))) b := by
  dsimp only [Gen.V, Gen.hostOps0]
  after_results
  funext j
  show shapeCast S32x1x256 (extractStridedSlice S32x256 ![0, 0] (m ((c : Thread nD τ).loc main_arg2)) slices_S32x1027_S32x256_0_0)
    shapeCasts_S32x256_S32x1x256 (ix3 b 0 j) = _
  rw [Cert.LibMiddleUnit.shapeCast_ab_a1b_apply]
  rfl

theorem b1_entry (b : Fin 32) : row3 (V m c main_v23 : S32x1x256.Idx → EReal) b 0
    = row2 (Read.val_main_v13 (F := Ideal) (m ((c : Thread nD τ).loc main_arg2))) b := by
  dsimp only [Gen.V, Gen.hostOps0]
  after_results
  funext j
  show shapeCast S32x1x256 (extractStridedSlice S32x256 ![0, 256] (m ((c : Thread nD τ).loc main_arg2)) slices_S32x1027_S32x256_0_256)
    shapeCasts_S32x256_S32x1x256 (ix3 b 0 j) = _
  rw [Cert.LibMiddleUnit.shapeCast_ab_a1b_apply]
  rfl

theorem b2_entry (b : Fin 32) : row3 (V m c main_v25 : S32x1x256.Idx → EReal) b 0
    = row2 (Read.val_main_v24 (F := Ideal) (m ((c : Thread nD τ).loc main_arg2))) b := by
  dsimp only [Gen.V, Gen.hostOps0]
  after_results
  funext j
  show shapeCast S32x1x256 (extractStridedSlice S32x256 ![0, 512] (m ((c : Thread nD τ).loc main_arg2)) slices_S32x1027_S32x256_0_512)
    shapeCasts_S32x256_S32x1x256 (ix3 b 0 j) = _
  rw [Cert.LibMiddleUnit.shapeCast_ab_a1b_apply]
  rfl

theorem b3_entry (b : Fin 32) : row3 (V m c main_v27 : S32x1x256.Idx → EReal) b 0
    = row2 (Read.val_main_v35 (F := Ideal) (m ((c : Thread nD τ).loc main_arg2))) b := by
  dsimp only [Gen.V, Gen.hostOps0]
  after_results
  funext j
  show shapeCast S32x1x256 (extractStridedSlice S32x256 ![0, 768] (m ((c : Thread nD τ).loc main_arg2)) slices_S32x1027_S32x256_0_768)
    shapeCasts_S32x256_S32x1x256 (ix3 b 0 j) = _
  rw [Cert.LibMiddleUnit.shapeCast_ab_a1b_apply]
  rfl

theorem b4_entry (b : Fin 32) : row3 (V m c main_v29 : S32x1x3.Idx → EReal) b 0
    = row2 (Read.val_main_v46 (F := Ideal) (m ((c : Thread nD τ).loc main_arg2))) b := by
  dsimp only [Gen.V, Gen.hostOps0]
  after_results
  funext j
  show shapeCast S32x1x3 (extractStridedSlice S32x3 ![0, 1024] (m ((c : Thread nD τ).loc main_arg2)) slices_S32x1027_S32x3_0_1024)
    shapeCasts_S32x3_S32x1x3 (ix3 b 0 j) = _
  rw [Cert.LibMiddleUnit.shapeCast_ab_a1b_apply]
  rfl

end Cert.KernelIdeal.Arrays

end
-- ==== Proof.KernelValue.lean ====
/-
  The idealized kernel's result array, as one function of its arguments.

  What a grid point writes back is, row by row, the network of the matching coordinate row with the point's sample's
  weights (the body on a row, then each input block read off its array): it is the point's block of the whole-array
  function `tiled`. The 128 output blocks tile the `[32, 16384, 3]` array — row `n` of sample `b` lies in the block of
  sample `b` and tile `n / 4096` —, so after the run the array IS `tiled`; and with the region-entry arrays read back to
  the arguments they were cut from, it is `Cert.ReferenceIdeal.Rows.result` of the three argument arrays.
-/
import proofs.«119944_j15745350108029_1_alg».proof.Proof.KernelBlocks
import proofs.«119944_j15745350108029_1_alg».proof.Proof.KernelRows
import proofs.«119944_j15745350108029_1_alg».proof.Proof.KernelArrays

noncomputable section

namespace Cert.KernelIdeal.Whole

open Cert.KernelIdeal Cert.KernelIdeal.Gen Idealize.ShloMosaic Idealize.ShloMosaic.TcCoe Idealize.SL.Sem Idealize.ShloMosaic.ValueIdx Cert.Siren
open Cert.KernelIdeal.Blocks
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- The network on row `(b, n)`, over the arrays as the region finds them. -/
def tiledAt (c : Dev nD) (b : Fin 32) (n : Fin 16384) : Fin 3 → EReal :=
  net (row3 (V m c main_v30 : S32x16384x2.Idx → EReal) b n)
    (row3 (V m c main_v3 : S32x2x256.Idx → EReal) b) (row3 (V m c main_v7 : S32x256x256.Idx → EReal) b)
    (row3 (V m c main_v11 : S32x256x256.Idx → EReal) b) (row3 (V m c main_v15 : S32x256x256.Idx → EReal) b)
    (row3 (V m c main_v19 : S32x256x3.Idx → EReal) b)
    (row3 (V m c main_v21 : S32x1x256.Idx → EReal) b 0) (row3 (V m c main_v23 : S32x1x256.Idx → EReal) b 0)
    (row3 (V m c main_v25 : S32x1x256.Idx → EReal) b 0) (row3 (V m c main_v27 : S32x1x256.Idx → EReal) b 0)
    (row3 (V m c main_v29 : S32x1x3.Idx → EReal) b 0)

/-- The network applied to every sample and row: entry `(b, n, j)` is output `j` on row `(b, n)`. -/
def tiled (c : Dev nD) : S32x16384x3.Idx → EReal := fun i => tiledAt m c (i 0) (i 1) (i 2)

/-! ## What a point writes back -/

/-- Row `r` of the tile stored at point `t` is the network on row `(e0, e1)`, the point's sample and the tile's row `r`. -/
theorem point_row (c : Dev nD) (t : Fin cfg0.N) (r : Fin 4096) (e0 : Fin 32) (e1 : Fin 16384)
    (he0 : e0.val = win0_11.index t (0 : Fin 3)) (he1 : e1.val = win0_11.index t (1 : Fin 3) * 4096 + r.val) :
    row3 (k0_pay1 (k0_pay2 (iblk m c 0 t) (iblk m c 1 t) (iblk m c 6 t) (iblk m c 2 t) (iblk m c 7 t) (iblk m c 3 t) (iblk m c 8 t))
      (Scalar.ofBits .f32 0x41F00000#32) (iblk m c 4 t) (iblk m c 9 t) (iblk m c 5 t) (iblk m c 10 t)) 0 r = tiledAt m c e0 e1 := by
  refine (Rows.payload_row (iblk m c 0 t) (iblk m c 1 t) (iblk m c 6 t) (iblk m c 2 t) (iblk m c 7 t) (iblk m c 3 t) (iblk m c 8 t)
    (iblk m c 4 t) (iblk m c 9 t) (iblk m c 5 t) (iblk m c 10 t) r).trans ?_
  unfold tiledAt
  rw [coords_block m c t e0 he0 r e1 he1, w0_block m c t e0 he0, w1_block m c t e0 he0, w2_block m c t e0 he0, w3_block m c t e0 he0,
    w4_block m c t e0 he0, b0_block m c t e0 he0, b1_block m c t e0 he0, b2_block m c t e0 he0, b3_block m c t e0 he0, b4_block m c t e0 he0]

/-- WHAT POINT `t` WRITES BACK is block `t` of `tiled`. -/
theorem flushed_eq (c : Dev nD) (t : Fin cfg0.N) :
    (dats m 0 c).flushed 11 t = ((cfg0.win 11).blk t).view.read (Elt Ideal) (tiled m c) := by
  rw [Value.flushed11]
  unfold out0_11
  rw [View.canon_unit_zero offsets_zero]
  simp only [View.ld_unit_zero (S := S1x4096x2) offsets_zero, View.ld_unit_zero (S := S1x2x256) offsets_zero,
    View.ld_unit_zero (S := S1x1x256) offsets_zero, View.ld_unit_zero (S := S1x256x256) offsets_zero,
    View.ld_unit_zero (S := S1x256x3) offsets_zero, View.ld_unit_zero (S := S1x1x3) offsets_zero]
  funext y
  obtain ⟨o0, o1, o2⟩ := idx_out t
  have hy0 : (y 0).val = 0 := by have h : (y 0).val < 1 := (y 0).isLt; omega
  have hy1 : (y 1).val < 4096 := (y 1).isLt
  have hy2 : (y 2).val < 3 := (y 2).isLt
  have hy : y = ix3 (0 : Fin 1) (⟨(y 1).val, hy1⟩ : Fin 4096) (⟨(y 2).val, hy2⟩ : Fin 3) := funext fun a => by
    match a with
    | ⟨0, _⟩ => exact Fin.ext hy0
    | ⟨1, _⟩ => rfl
    | ⟨2, _⟩ => rfl
  have hemb : ((cfg0.win 11).blk t).view.emb y = ix3 (⟨win0_11.index t (0 : Fin 3), by omega⟩ : Fin 32)
      (⟨win0_11.index t (1 : Fin 3) * 4096 + (y 1).val, by omega⟩ : Fin 16384) (⟨(y 2).val, hy2⟩ : Fin 3) := funext fun a => Fin.ext (by
    match a with
    | ⟨0, _⟩ => show win0_11.index t (0 : Fin 3) * 1 + 1 * (y 0).val = win0_11.index t (0 : Fin 3); omega
    | ⟨1, _⟩ => show win0_11.index t (1 : Fin 3) * 4096 + 1 * (y 1).val = win0_11.index t (1 : Fin 3) * 4096 + (y 1).val; omega
    | ⟨2, _⟩ => show win0_11.index t (2 : Fin 3) * 3 + 1 * (y 2).val = (y 2).val; omega)
  show k0_pay1 (k0_pay2 (iblk m c 0 t) (iblk m c 1 t) (iblk m c 6 t) (iblk m c 2 t) (iblk m c 7 t) (iblk m c 3 t) (iblk m c 8 t))
      (Scalar.ofBits .f32 0x41F00000#32) (iblk m c 4 t) (iblk m c 9 t) (iblk m c 5 t) (iblk m c 10 t) y = tiled m c (((cfg0.win 11).blk t).view.emb y)
  rw [hemb]
  refine (congrArg _ hy).trans ?_
  exact congrFun (point_row m c t ⟨(y 1).val, hy1⟩ ⟨win0_11.index t (0 : Fin 3), by omega⟩
    ⟨win0_11.index t (1 : Fin 3) * 4096 + (y 1).val, by omega⟩ rfl rfl) ⟨(y 2).val, hy2⟩

/-! ## The blocks tile the array -/

/-- An index of the array is in point `t`'s block iff each coordinate is in the block's range on its axis. -/
theorem mem_blk (t : Fin cfg0.N) (i : S32x16384x3.Idx) :
    i ∈ ((cfg0.win 11).blk t).view.set ↔ ∀ a : Fin 3, win0_11.index t a * S1x4096x3.size a ≤ (i a).val ∧ (i a).val < win0_11.index t a * S1x4096x3.size a + S1x4096x3.size a := by
  show i ∈ ((View.whole main_v31).slice (win0_11.rect t)).set ↔ _
  rw [View.set_slice_whole, Rect.mem_set_unit]
  exact Iff.rfl

/-- Every index is in some point's block: sample `b`, row `n` lies in the point of sample `b` and tile `n / 4096`. -/
theorem cover (i : S32x16384x3.Idx) : ∃ t : Fin cfg0.N, (cfg0.win 11).flush t = true ∧ i ∈ ((cfg0.win 11).blk t).view.set := by
  have hi0 : (i 0).val < 32 := (i 0).isLt
  have hi1 : (i 1).val < 16384 := (i 1).isLt
  have hi2 : (i 2).val < 3 := (i 2).isLt
  obtain ⟨t, ht⟩ := idx_onto ⟨(i 0).val, hi0⟩ ⟨(i 1).val / 4096, by omega⟩
  have q0 : win0_11.index t (0 : Fin 3) = (i 0).val := congrFun ht 0
  have q1 : win0_11.index t (1 : Fin 3) = (i 1).val / 4096 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 4096 ≤ (i 1).val ∧ (i 1).val < win0_11.index t (1 : Fin 3) * 4096 + 4096; omega
  | ⟨2, _⟩ => show win0_11.index t (2 : Fin 3) * 3 ≤ (i 2).val ∧ (i 2).val < win0_11.index t (2 : Fin 3) * 3 + 3; omega

/-- THE ARRAY after the run is `tiled`. -/
theorem final (c : Dev nD) : (dats m 0 c).arrAt 11 cfg0.N = tiled m c :=
  (dats m 0 c).arrAt_eq_of_cover 11 (tiled m c) (fun t _ => flushed_eq m c t) cover

/-! ## Back to the arguments -/

/-- With each region-entry array read back to the argument it was cut from, the network on a row over the region's
    arrays is the network on that row over the three argument arrays. -/
theorem tiledAt_eq (c : Dev nD) (b : Fin 32) (n : Fin 16384) :
    tiledAt m c b n = Cert.ReferenceIdeal.Rows.resultAt (m ((c : Thread nD τ).loc main_arg0))
      (m ((c : Thread nD τ).loc main_arg1)) (m ((c : Thread nD τ).loc main_arg2)) b n := by
  unfold tiledAt Cert.ReferenceIdeal.Rows.resultAt
  rw [Arrays.coords_entry, Arrays.w0_entry, Arrays.w1_entry, Arrays.w2_entry, Arrays.w3_entry, Arrays.w4_entry,
    Arrays.b0_entry, Arrays.b1_entry, Arrays.b2_entry, Arrays.b3_entry, Arrays.b4_entry]

theorem tiled_eq (c : Dev nD) : tiled m c = Cert.ReferenceIdeal.Rows.result (m ((c : Thread nD τ).loc main_arg0))
    (m ((c : Thread nD τ).loc main_arg1)) (m ((c : Thread nD τ).loc main_arg2)) :=
  funext fun i => congrFun (tiledAt_eq m c (i 0) (i 1)) (i 2)

/-- The run: every weakly fair execution ends with the result array at the network's result on the arguments and the
    arguments unchanged. -/
theorem run : θ_run defs (onTc (τ := τ) (main (F := Ideal))) ⟨m, fun _ => 0, ρ⟩ fun r => ∀ c : Dev nD,
      r.2.mem ((c : Thread nD τ).loc main_v31) = Cert.ReferenceIdeal.Rows.result (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (tiled_eq m c)), (h c).2⟩) (Value.run_blocks m ρ)

end Cert.KernelIdeal.Whole

end
-- ==== Proof.lean ====
/-
  The five claims of this certificate.

  Both idealized programs compute, for each of 32 samples and each of 16384 coordinate rows, a five-layer sine network:
  four layers `h ↦ sin (30 · (h · W + β))` and a last affine layer, the sample's matrices and bias rows cut out of the flat
  weight and bias arguments. The kernel does it tile by tile on a (sample, row tile) grid, with matrix products into a
  zero accumulator; the reference does it for the whole batch with batched `dot_general`s. On the extended reals both
  are the same sums, products and sines, index by index (`Cert.Siren.net`), so the two result arrays are one function
  `Cert.ReferenceIdeal.Rows.result` of the arguments; no finiteness of the inputs is used.

  The frames of the two kernel programs are their generated frame runs; the reference's frame is its run with the result
  dropped. The ideal pass rewrote nothing, so `preserves` has no conjunct.
-/
import proofs.«119944_j15745350108029_1_alg».proof.Defs
import proofs.«119944_j15745350108029_1_alg».proof.Proof.Gen.Kernel
import proofs.«119944_j15745350108029_1_alg».proof.Proof.Gen.Kernel.Skeleton
import proofs.«119944_j15745350108029_1_alg».proof.Proof.Gen.Kernel.Launch
import proofs.«119944_j15745350108029_1_alg».proof.Proof.Gen.Kernel.Points
import proofs.«119944_j15745350108029_1_alg».proof.Proof.Gen.Kernel.Frame
import proofs.«119944_j15745350108029_1_alg».proof.Proof.Gen.KernelIdeal
import proofs.«119944_j15745350108029_1_alg».proof.Proof.Gen.KernelIdeal.Skeleton
import proofs.«119944_j15745350108029_1_alg».proof.Proof.Gen.KernelIdeal.Launch
import proofs.«119944_j15745350108029_1_alg».proof.Proof.Gen.KernelIdeal.Points
import proofs.«119944_j15745350108029_1_alg».proof.Proof.Gen.KernelIdeal.Frame
import proofs.«119944_j15745350108029_1_alg».proof.Proof.Gen.ReferenceIdeal
import proofs.«119944_j15745350108029_1_alg».proof.Proof.Gen.KernelIdeal.Value
import proofs.«119944_j15745350108029_1_alg».proof.Proof.Gen.ReferenceIdeal.Run
import proofs.«119944_j15745350108029_1_alg».proof.Proof.Gen.ReferenceIdeal.Read
import proofs.«119944_j15745350108029_1_alg».proof.Proof.Gen.Pre_finite_inputs
import proofs.«119944_j15745350108029_1_alg».proof.Proof.RefRows
import proofs.«119944_j15745350108029_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

theorem preserves : Cert.preserves_Kernel_KernelIdeal := trivial

/-- From memories agreeing on the arguments both programs end with the result array at the network's result on those
    arguments, and with the arguments as they were. -/
theorem algebraic : Cert.algebraic_KernelIdeal_ReferenceIdeal := by
  intro m ρ m' ρ' _ hagree
  refine ⟨fun c => Cert.ReferenceIdeal.Rows.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3), ?_, ?_⟩
  · exact (θ_run Cert.KernelIdeal.defs _ _).mono
      (fun _ h c => ⟨(h c).1, (h c).2.1, (h c).2.2.1, (h c).2.2.2.1, (h c).2.2.2.2, (h c).2.1, (h c).2.2.1, (h c).2.2.2.1, (h c).2.2.2.2⟩)
      (Cert.KernelIdeal.Whole.run m ρ)
  · refine (θ_run Cert.ReferenceIdeal.defs _ _).mono (fun _ h c => ⟨(h c).1.trans ?_, (h c).2.1.trans (hagree c).1,
      (h c).2.2.1.trans (hagree c).2.1, (h c).2.2.2.1.trans (hagree c).2.2.1, (h c).2.2.2.2.1.trans (hagree c).2.2.2, (h c).2.2.2.2.2⟩)
      (Cert.ReferenceIdeal.Value.run (F := Ideal) m' ρ')
    rw [Cert.ReferenceIdeal.Read.val_main_v51_eq, Cert.ReferenceIdeal.Rows.reference_result, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
